-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x600 : Shape := ⟨2, ![128, 600]⟩
abbrev S600 : Shape := ⟨1, ![600]⟩
abbrev S600x16 : Shape := ⟨2, ![600, 16]⟩
abbrev S16 : Shape := ⟨1, ![16]⟩
abbrev S16x4 : Shape := ⟨2, ![16, 4]⟩
abbrev S4 : Shape := ⟨1, ![4]⟩
abbrev S4x16 : Shape := ⟨2, ![4, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x600 : S_.BroadcastsInDim S128x600 (![] : Fin 0 → Fin S128x600.rank)
  reducesTo_S128x600_S_d0_1 : S128x600.ReducesTo [0, 1] S_
  bcast_S_S600 : S_.BroadcastsInDim S600 (![] : Fin 0 → Fin S600.rank)
  reducesTo_S600_S_d0 : S600.ReducesTo [0] S_
  bcast_S_S600x16 : S_.BroadcastsInDim S600x16 (![] : Fin 0 → Fin S600x16.rank)
  reducesTo_S600x16_S_d0_1 : S600x16.ReducesTo [0, 1] S_
  bcast_S_S16 : S_.BroadcastsInDim S16 (![] : Fin 0 → Fin S16.rank)
  reducesTo_S16_S_d0 : S16.ReducesTo [0] S_
  bcast_S_S16x4 : S_.BroadcastsInDim S16x4 (![] : Fin 0 → Fin S16x4.rank)
  reducesTo_S16x4_S_d0_1 : S16x4.ReducesTo [0, 1] S_
  bcast_S_S4 : S_.BroadcastsInDim S4 (![] : Fin 0 → Fin S4.rank)
  reducesTo_S4_S_d0 : S4.ReducesTo [0] S_
  bcast_S_S4x16 : S_.BroadcastsInDim S4x16 (![] : Fin 0 → Fin S4x16.rank)
  reducesTo_S4x16_S_d0_1 : S4x16.ReducesTo [0, 1] S_

variable [Facts]

def fn_part2 {F : FTy → Type} [FloatOps F] (main_arg7 : FVec F S4 .f32) (main_arg8 : FVec F S4x16 .f32) (main_arg9 : FVec F S16 .f32) (main_v33 : IVec S_ 1) : IVec S_ 1 :=
  let main_v34 : FVec F S4 .f32 := Host.absf main_arg7
  let main_cst_12 : FVec F S_ .f32 := constant S_ .f32 0x7F800000#32
  let main_v35 : FVec F S4 .f32 := broadcastInDim S4 ![] bcast_S_S4 main_cst_12
  let main_v36 : IVec S4 1 := cmpf .olt main_v34 main_v35
  let main_c_13 : IVec S_ 1 := constantI S_ 1 1#1
  let main_v37 : IVec S_ 1 := (fun x v => Host.reduce IntOp.andi x v reducesTo_S4_S_d0 h_S_) main_v36 main_c_13
  let main_v38 : IVec S_ 1 := andi main_v33 main_v37
  let main_v39 : FVec F S4x16 .f32 := Host.absf main_arg8
  let main_cst_14 : FVec F S_ .f32 := constant S_ .f32 0x7F800000#32
  let main_v40 : FVec F S4x16 .f32 := broadcastInDim S4x16 ![] bcast_S_S4x16 main_cst_14
  let main_v41 : IVec S4x16 1 := cmpf .olt main_v39 main_v40
  let main_c_15 : IVec S_ 1 := constantI S_ 1 1#1
  let main_v42 : IVec S_ 1 := (fun x v => Host.reduce IntOp.andi x v reducesTo_S4x16_S_d0_1 h_S_) main_v41 main_c_15
  let main_v43 : IVec S_ 1 := andi main_v38 main_v42
  let main_v44 : FVec F S16 .f32 := Host.absf main_arg9
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  main_v48

def fn_part1 {F : FTy → Type} [FloatOps F] (main_arg4 : FVec F S600x16 .f32) (main_arg5 : FVec F S16 .f32) (main_arg6 : FVec F S16x4 .f32) (main_arg7 : FVec F S4 .f32) (main_arg8 : FVec F S4x16 .f32) (main_arg9 : FVec F S16 .f32) (main_v13 : IVec S_ 1) (main_v16 : IVec S600 1) : IVec S_ 1 :=
  let main_c_5 : IVec S_ 1 := constantI S_ 1 1#1
  let main_v17 : IVec S_ 1 := (fun x v => Host.reduce IntOp.andi x v reducesTo_S600_S_d0 h_S_) main_v16 main_c_5
  let main_v18 : IVec S_ 1 := andi main_v13 main_v17
  let main_v19 : FVec F S600x16 .f32 := Host.absf main_arg4
  let main_cst_6 : FVec F S_ .f32 := constant S_ .f32 0x7F800000#32
  let main_v20 : FVec F S600x16 .f32 := broadcastInDim S600x16 ![] bcast_S_S600x16 main_cst_6
  let main_v21 : IVec S600x16 1 := cmpf .olt main_v19 main_v20
  let main_c_7 : IVec S_ 1 := constantI S_ 1 1#1
  let main_v22 : IVec S_ 1 := (fun x v => Host.reduce IntOp.andi x v reducesTo_S600x16_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x4 .f32 := Host.absf main_arg6
  let main_cst_10 : FVec F S_ .f32 := constant S_ .f32 0x7F800000#32
  let main_v30 : FVec F S16x4 .f32 := broadcastInDim S16x4 ![] bcast_S_S16x4 main_cst_10
  let main_v31 : IVec S16x4 1 := cmpf .olt main_v29 main_v30
  let main_c_11 : IVec S_ 1 := constantI S_ 1 1#1
  let main_v32 : IVec S_ 1 := (fun x v => Host.reduce IntOp.andi x v reducesTo_S16x4_S_d0_1 h_S_) main_v31 main_c_11
  let main_v33 : IVec S_ 1 := andi main_v28 main_v32
  fn_part2 (F := F) main_arg7 main_arg8 main_arg9 main_v33

def fn {F : FTy → Type} [FloatOps F] (main_arg0 : FVec F S10000x128 .f32) (main_arg1 : FVec F S10000x10000 .f32) (main_arg2 : FVec F S128x600 .f32) (main_arg3 : FVec F S600 .f32) (main_arg4 : FVec F S600x16 .f32) (main_arg5 : FVec F S16 .f32) (main_arg6 : FVec F S16x4 .f32) (main_arg7 : FVec F S4 .f32) (main_arg8 : FVec F S4x16 .f32) (main_arg9 : FVec F S16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x600 .f32 := Host.absf main_arg2
  let main_cst_2 : FVec F S_ .f32 := constant S_ .f32 0x7F800000#32
  let main_v10 : FVec F S128x600 .f32 := broadcastInDim S128x600 ![] bcast_S_S128x600 main_cst_2
  let main_v11 : IVec S128x600 1 := cmpf .olt main_v9 main_v10
  let main_c_3 : IVec S_ 1 := constantI S_ 1 1#1
  let main_v12 : IVec S_ 1 := (fun x v => Host.reduce IntOp.andi x v reducesTo_S128x600_S_d0_1 h_S_) main_v11 main_c_3
  let main_v13 : IVec S_ 1 := andi main_v8 main_v12
  let main_v14 : FVec F S600 .f32 := Host.absf main_arg3
  let main_cst_4 : FVec F S_ .f32 := constant S_ .f32 0x7F800000#32
  let main_v15 : FVec F S600 .f32 := broadcastInDim S600 ![] bcast_S_S600 main_cst_4
  let main_v16 : IVec S600 1 := cmpf .olt main_v14 main_v15
  fn_part1 (F := F) main_arg4 main_arg5 main_arg6 main_arg7 main_arg8 main_arg9 main_v13 main_v16
-- ==== Kernel.lean ====
abbrev S10000x128 : Shape := ⟨2, ![10000, 128]⟩
abbrev S10000x10000 : Shape := ⟨2, ![10000, 10000]⟩
abbrev S128x600 : Shape := ⟨2, ![128, 600]⟩
abbrev S600 : Shape := ⟨1, ![600]⟩
abbrev S600x16 : Shape := ⟨2, ![600, 16]⟩
abbrev S16 : Shape := ⟨1, ![16]⟩
abbrev S16x4 : Shape := ⟨2, ![16, 4]⟩
abbrev S4 : Shape := ⟨1, ![4]⟩
abbrev S4x16 : Shape := ⟨2, ![4, 16]⟩
abbrev S1x600 : Shape := ⟨2, ![1, 600]⟩
abbrev S10000x16 : Shape := ⟨2, ![10000, 16]⟩
abbrev S1x16 : Shape := ⟨2, ![1, 16]⟩
abbrev S10000x4 : Shape := ⟨2, ![10000, 4]⟩
abbrev S1x4 : Shape := ⟨2, ![1, 4]⟩
abbrev S400x10000 : Shape := ⟨2, ![400, 10000]⟩
abbrev S400x16 : Shape := ⟨2, ![400, 16]⟩
abbrev S400x128 : Shape := ⟨2, ![400, 128]⟩
abbrev S400x600 : Shape := ⟨2, ![400, 600]⟩
abbrev S400x4 : Shape := ⟨2, ![400, 4]⟩
abbrev S400 : Shape := ⟨1, ![400]⟩
abbrev S400x1 : Shape := ⟨2, ![400, 1]⟩

abbrev nBuf : Space → Nat
  | .hbm => 18
  | .vmem => 28
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x600, .f32⟩
  | .hbm, ⟨3, _⟩ => ⟨S600, .f32⟩
  | .hbm, ⟨4, _⟩ => ⟨S600x16, .f32⟩
  | .hbm, ⟨5, _⟩ => ⟨S16, .f32⟩
  | .hbm, ⟨6, _⟩ => ⟨S16x4, .f32⟩
  | .hbm, ⟨7, _⟩ => ⟨S4, .f32⟩
  | .hbm, ⟨8, _⟩ => ⟨S4x16, .f32⟩
  | .hbm, ⟨9, _⟩ => ⟨S16, .f32⟩
  | .hbm, ⟨10, _⟩ => ⟨S1x600, .f32⟩
  | .hbm, ⟨11, _⟩ => ⟨S10000x16, .f32⟩
  | .hbm, ⟨12, _⟩ => ⟨S1x16, .f32⟩
  | .hbm, ⟨13, _⟩ => ⟨S10000x4, .f32⟩
  | .hbm, ⟨14, _⟩ => ⟨S1x4, .f32⟩
  | .hbm, ⟨15, _⟩ => ⟨S10000x16, .f32⟩
  | .hbm, ⟨16, _⟩ => ⟨S1x16, .f32⟩
  | .hbm, ⟨17, _⟩ => ⟨S10000x16, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x600, .f32⟩
  | .local _ .vmem, ⟨4, _⟩ => ⟨S1x600, .f32⟩
  | .local _ .vmem, ⟨5, _⟩ => ⟨S600x16, .f32⟩
  | .local _ .vmem, ⟨6, _⟩ => ⟨S400x16, .f32⟩
  | .local _ .vmem, ⟨7, _⟩ => ⟨S400x16, .f32⟩
  | .local _ .vmem, ⟨8, _⟩ => ⟨S400x10000, .f32⟩
  | .local _ .vmem, ⟨9, _⟩ => ⟨S400x10000, .f32⟩
  | .local _ .vmem, ⟨10, _⟩ => ⟨S10000x16, .f32⟩
  | .local _ .vmem, ⟨11, _⟩ => ⟨S1x16, .f32⟩
  | .local _ .vmem, ⟨12, _⟩ => ⟨S16x4, .f32⟩
  | .local _ .vmem, ⟨13, _⟩ => ⟨S400x4, .f32⟩
  | .local _ .vmem, ⟨14, _⟩ => ⟨S400x4, .f32⟩
  | .local _ .vmem, ⟨15, _⟩ => ⟨S400x10000, .f32⟩
  | .local _ .vmem, ⟨16, _⟩ => ⟨S400x10000, .f32⟩
  | .local _ .vmem, ⟨17, _⟩ => ⟨S10000x4, .f32⟩
  | .local _ .vmem, ⟨18, _⟩ => ⟨S1x4, .f32⟩
  | .local _ .vmem, ⟨19, _⟩ => ⟨S4x16, .f32⟩
  | .local _ .vmem, ⟨20, _⟩ => ⟨S400x16, .f32⟩
  | .local _ .vmem, ⟨21, _⟩ => ⟨S400x16, .f32⟩
  | .local _ .vmem, ⟨22, _⟩ => ⟨S400x10000, .f32⟩
  | .local _ .vmem, ⟨23, _⟩ => ⟨S400x10000, .f32⟩
  | .local _ .vmem, ⟨24, _⟩ => ⟨S10000x16, .f32⟩
  | .local _ .vmem, ⟨25, _⟩ => ⟨S1x16, .f32⟩
  | .local _ .vmem, ⟨26, _⟩ => ⟨S400x16, .f32⟩
  | .local _ .vmem, ⟨27, _⟩ => ⟨S400x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_v0 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x600 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x600 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S600x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x4 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x4 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x4 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S400x16 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S400x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S400x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S600_S1x600 : S600.ShapeCasts S1x600
  shapeCasts_S16_S1x16 : S16.ShapeCasts S1x16
  shapeCasts_S4_S1x4 : S4.ShapeCasts S1x4
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S128x600_S128x600_0_0 : ∀ a, (![0, 0] : Fin 2 → Nat) a + S128x600.size a ≤ S128x600.size a
  h_S128x600 : 0 < S128x600.numel
  inb_S1x600_S1x600_0_0 : ∀ a, (![0, 0] : Fin 2 → Nat) a + S1x600.size a ≤ S1x600.size a
  h_S1x600 : 0 < S1x600.numel
  shapeCasts_S1x600_S1x600 : S1x600.ShapeCasts S1x600
  broadcasts_S1x600_S400x600 : S1x600.Broadcasts S400x600
  inb_S600x16_S600x16_0_0 : ∀ a, (![0, 0] : Fin 2 → Nat) a + S600x16.size a ≤ S600x16.size a
  h_S600x16 : 0 < S600x16.numel
  inb_S400x16_S400x16_0_0 : ∀ a, (![0, 0] : Fin 2 → Nat) a + S400x16.size a ≤ S400x16.size a
  h_S400x16 : 0 < S400x16.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S400x16 : S1x16.Broadcasts S400x16
  inb_S16x4_S16x4_0_0 : ∀ a, (![0, 0] : Fin 2 → Nat) a + S16x4.size a ≤ S16x4.size a
  h_S16x4 : 0 < S16x4.numel
  inb_S400x4_S400x4_0_0 : ∀ a, (![0, 0] : Fin 2 → Nat) a + S400x4.size a ≤ S400x4.size a
  h_S400x4 : 0 < S400x4.numel
  inb_S10000x4_S10000x4_0_0 : ∀ a, (![0, 0] : Fin 2 → Nat) a + S10000x4.size a ≤ S10000x4.size a
  h_S10000x4 : 0 < S10000x4.numel
  shapeCasts_S10000x4_S10000x4 : S10000x4.ShapeCasts S10000x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S400x4 : S1x4.Broadcasts S400x4
  inb_S4x16_S4x16_0_0 : ∀ a, (![0, 0] : Fin 2 → Nat) a + S4x16.size a ≤ S4x16.size a
  h_S4x16 : 0 < S4x16.numel
  reduces_S400x16_S400 : S400x16.Reduces [1] S400
  shapeCasts_S400_S400x1 : S400.ShapeCasts S400x1
  broadcasts_S400x1_S400x16 : S400x1.Broadcasts S400x16
  dot_S400x10000_S10000x128_S400x128_1_0_0_1_n_n_wf : DotDims.WF S400x10000 S10000x128 S400x128 [1] [0] [0] [1] [] []
  dot_S400x128_S128x600_S400x600_1_0_0_1_n_n_wf : DotDims.WF S400x128 S128x600 S400x600 [1] [0] [0] [1] [] []
  dot_S400x600_S600x16_S400x16_1_0_0_1_n_n_wf : DotDims.WF S400x600 S600x16 S400x16 [1] [0] [0] [1] [] []
  dot_S400x10000_S10000x16_S400x16_1_0_0_1_n_n_wf : DotDims.WF S400x10000 S10000x16 S400x16 [1] [0] [0] [1] [] []
  dot_S400x16_S16x4_S400x4_1_0_0_1_n_n_wf : DotDims.WF S400x16 S16x4 S400x4 [1] [0] [0] [1] [] []
  dot_S400x10000_S10000x4_S400x4_1_0_0_1_n_n_wf : DotDims.WF S400x10000 S10000x4 S400x4 [1] [0] [0] [1] [] []
  dot_S400x4_S4x16_S400x16_1_0_0_1_n_n_wf : DotDims.WF S400x4 S4x16 S400x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x600.size a ≤ S128x600.size a
  hwx0_2 : ∀ i : grid0.Coords, EltTy.bits .f32 = 32 ∨ (Rect.block (s := S128x600) S128x600.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x600.size a ≤ S1x600.size a
  hwx0_3 : ∀ i : grid0.Coords, EltTy.bits .f32 = 32 ∨ (Rect.block (s := S1x600) S1x600.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S600x16.size a ≤ S600x16.size a
  hwx0_4 : ∀ i : grid0.Coords, EltTy.bits .f32 = 32 ∨ (Rect.block (s := S600x16) S600x16.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x16.size a ≤ S10000x16.size a
  hwx0_5 : ∀ i : grid0.Coords, EltTy.bits .f32 = 32 ∨ (Rect.block (s := S10000x16) S400x16.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S10000x16.size a
  hwx1_1 : ∀ i : grid1.Coords, EltTy.bits .f32 = 32 ∨ (Rect.block (s := S10000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x4.size a ≤ S16x4.size a
  hwx1_3 : ∀ i : grid1.Coords, EltTy.bits .f32 = 32 ∨ (Rect.block (s := S16x4) S16x4.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x4.size a ≤ S10000x4.size a
  hwx1_4 : ∀ i : grid1.Coords, EltTy.bits .f32 = 32 ∨ (Rect.block (s := S10000x4) S400x4.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x4.size a ≤ S10000x4.size a
  hwx2_1 : ∀ i : grid2.Coords, EltTy.bits .f32 = 32 ∨ (Rect.block (s := S10000x4) S10000x4.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x4.size a ≤ S1x4.size a
  hwx2_2 : ∀ i : grid2.Coords, EltTy.bits .f32 = 32 ∨ (Rect.block (s := S1x4) S1x4.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S4x16.size a ≤ S4x16.size a
  hwx2_3 : ∀ i : grid2.Coords, EltTy.bits .f32 = 32 ∨ (Rect.block (s := S4x16) S4x16.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x16.size a ≤ S10000x16.size a
  hwx2_4 : ∀ i : grid2.Coords, EltTy.bits .f32 = 32 ∨ (Rect.block (s := S10000x16) S400x16.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S400x10000.size a ≤ S10000x10000.size a
  hwx3_0 : ∀ i : grid3.Coords, EltTy.bits .f32 = 32 ∨ (Rect.block (s := S10000x10000) S400x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x16.size a ≤ S10000x16.size a
  hwx3_1 : ∀ i : grid3.Coords, EltTy.bits .f32 = 32 ∨ (Rect.block (s := S10000x16) S10000x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x16.size a ≤ S1x16.size a
  hwx3_2 : ∀ i : grid3.Coords, EltTy.bits .f32 = 32 ∨ (Rect.block (s := S1x16) S1x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S400x16.size a ≤ S10000x16.size a
  hwx3_3 : ∀ i : grid3.Coords, EltTy.bits .f32 = 32 ∨ (Rect.block (s := S10000x16) S400x16.size (cc3_transform_3 i) (hinb3_3 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x600_S400x600_1_0_0_1_n_n : DotDims S400x128 S128x600 S400x600 where
  lhsContracting := [1]
  rhsContracting := [0]
  lhsNonContracting := [0]
  rhsNonContracting := [1]
  lhsBatch := []
  rhsBatch := []
  wf := dot_S400x128_S128x600_S400x600_1_0_0_1_n_n_wf
def dot_S400x600_S600x16_S400x16_1_0_0_1_n_n : DotDims S400x600 S600x16 S400x16 where
  lhsContracting := [1]
  rhsContracting := [0]
  lhsNonContracting := [0]
  rhsNonContracting := [1]
  lhsBatch := []
  rhsBatch := []
  wf := dot_S400x600_S600x16_S400x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf
def dot_S400x16_S16x4_S400x4_1_0_0_1_n_n : DotDims S400x16 S16x4 S400x4 where
  lhsContracting := [1]
  rhsContracting := [0]
  lhsNonContracting := [0]
  rhsNonContracting := [1]
  lhsBatch := []
  rhsBatch := []
  wf := dot_S400x16_S16x4_S400x4_1_0_0_1_n_n_wf
def dot_S400x10000_S10000x4_S400x4_1_0_0_1_n_n : DotDims S400x10000 S10000x4 S400x4 where
  lhsContracting := [1]
  rhsContracting := [0]
  lhsNonContracting := [0]
  rhsNonContracting := [1]
  lhsBatch := []
  rhsBatch := []
  wf := dot_S400x10000_S10000x4_S400x4_1_0_0_1_n_n_wf
def dot_S400x4_S4x16_S400x16_1_0_0_1_n_n : DotDims S400x4 S4x16 S400x16 where
  lhsContracting := [1]
  rhsContracting := [0]
  lhsNonContracting := [0]
  rhsNonContracting := [1]
  lhsBatch := []
  rhsBatch := []
  wf := dot_S400x4_S4x16_S400x16_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x600.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x600.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S600x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1) S400x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v1) S10000x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v2) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S16x4.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v3) S400x4.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v3) S10000x4.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v4) S1x4.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S4x16.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v5) S400x16.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_arg1) S400x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v5) S10000x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_call0_v6) S1x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v0) S400x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x600 : Shape := ⟨2, ![128, 600]⟩
abbrev S600 : Shape := ⟨1, ![600]⟩
abbrev S600x16 : Shape := ⟨2, ![600, 16]⟩
abbrev S16 : Shape := ⟨1, ![16]⟩
abbrev S16x4 : Shape := ⟨2, ![16, 4]⟩
abbrev S4 : Shape := ⟨1, ![4]⟩
abbrev S4x16 : Shape := ⟨2, ![4, 16]⟩
abbrev S10000x600 : Shape := ⟨2, ![10000, 600]⟩
abbrev S1x600 : Shape := ⟨2, ![1, 600]⟩
abbrev S_ : Shape := ⟨0, ![]⟩
abbrev S10000x16 : Shape := ⟨2, ![10000, 16]⟩
abbrev S1x16 : Shape := ⟨2, ![1, 16]⟩
abbrev S10000x4 : Shape := ⟨2, ![10000, 4]⟩
abbrev S1x4 : Shape := ⟨2, ![1, 4]⟩
abbrev S10000 : Shape := ⟨1, ![10000]⟩
abbrev S10000x1 : Shape := ⟨2, ![10000, 1]⟩

abbrev nBuf : Space → Nat
  | .hbm => 54
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x600, .f32⟩
  | .hbm, ⟨3, _⟩ => ⟨S600, .f32⟩
  | .hbm, ⟨4, _⟩ => ⟨S600x16, .f32⟩
  | .hbm, ⟨5, _⟩ => ⟨S16, .f32⟩
  | .hbm, ⟨6, _⟩ => ⟨S16x4, .f32⟩
  | .hbm, ⟨7, _⟩ => ⟨S4, .f32⟩
  | .hbm, ⟨8, _⟩ => ⟨S4x16, .f32⟩
  | .hbm, ⟨9, _⟩ => ⟨S16, .f32⟩
  | .hbm, ⟨10, _⟩ => ⟨S10000x600, .f32⟩
  | .hbm, ⟨11, _⟩ => ⟨S10000x600, .f32⟩
  | .hbm, ⟨12, _⟩ => ⟨S1x600, .f32⟩
  | .hbm, ⟨13, _⟩ => ⟨S10000x600, .f32⟩
  | .hbm, ⟨14, _⟩ => ⟨S10000x600, .f32⟩
  | .hbm, ⟨15, _⟩ => ⟨S_, .f32⟩
  | .hbm, ⟨16, _⟩ => ⟨S10000x600, .f32⟩
  | .hbm, ⟨17, _⟩ => ⟨S10000x600, .f32⟩
  | .hbm, ⟨18, _⟩ => ⟨S10000x16, .f32⟩
  | .hbm, ⟨19, _⟩ => ⟨S10000x16, .f32⟩
  | .hbm, ⟨20, _⟩ => ⟨S1x16, .f32⟩
  | .hbm, ⟨21, _⟩ => ⟨S10000x16, .f32⟩
  | .hbm, ⟨22, _⟩ => ⟨S10000x16, .f32⟩
  | .hbm, ⟨23, _⟩ => ⟨S_, .f32⟩
  | .hbm, ⟨24, _⟩ => ⟨S10000x16, .f32⟩
  | .hbm, ⟨25, _⟩ => ⟨S10000x16, .f32⟩
  | .hbm, ⟨26, _⟩ => ⟨S10000x4, .f32⟩
  | .hbm, ⟨27, _⟩ => ⟨S10000x4, .f32⟩
  | .hbm, ⟨28, _⟩ => ⟨S1x4, .f32⟩
  | .hbm, ⟨29, _⟩ => ⟨S10000x4, .f32⟩
  | .hbm, ⟨30, _⟩ => ⟨S10000x4, .f32⟩
  | .hbm, ⟨31, _⟩ => ⟨S_, .f32⟩
  | .hbm, ⟨32, _⟩ => ⟨S10000x4, .f32⟩
  | .hbm, ⟨33, _⟩ => ⟨S10000x4, .f32⟩
  | .hbm, ⟨34, _⟩ => ⟨S10000x16, .f32⟩
  | .hbm, ⟨35, _⟩ => ⟨S10000x16, .f32⟩
  | .hbm, ⟨36, _⟩ => ⟨S1x16, .f32⟩
  | .hbm, ⟨37, _⟩ => ⟨S10000x16, .f32⟩
  | .hbm, ⟨38, _⟩ => ⟨S10000x16, .f32⟩
  | .hbm, ⟨39, _⟩ => ⟨S_, .f32⟩
  | .hbm, ⟨40, _⟩ => ⟨S10000, .f32⟩
  | .hbm, ⟨41, _⟩ => ⟨S_, .f32⟩
  | .hbm, ⟨42, _⟩ => ⟨S10000, .f32⟩
  | .hbm, ⟨43, _⟩ => ⟨S10000, .f32⟩
  | .hbm, ⟨44, _⟩ => ⟨S10000x1, .f32⟩
  | .hbm, ⟨45, _⟩ => ⟨S10000x16, .f32⟩
  | .hbm, ⟨46, _⟩ => ⟨S10000x16, .f32⟩
  | .hbm, ⟨47, _⟩ => ⟨S10000x16, .f32⟩
  | .hbm, ⟨48, _⟩ => ⟨S_, .f32⟩
  | .hbm, ⟨49, _⟩ => ⟨S10000, .f32⟩
  | .hbm, ⟨50, _⟩ => ⟨S10000x1, .f32⟩
  | .hbm, ⟨51, _⟩ => ⟨S10000x1, .f32⟩
  | .hbm, ⟨52, _⟩ => ⟨S10000x16, .f32⟩
  | .hbm, ⟨53, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_cst : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call2_cst : Ref sig .tc := ⟨.hbm, 31, rfl⟩
abbrev main_call2_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_call3_cst : Ref sig .tc := ⟨.hbm, 39, rfl⟩
abbrev main_call3_v0 : Ref sig .tc := ⟨.hbm, 40, rfl⟩
abbrev main_call3_cst_0 : Ref sig .tc := ⟨.hbm, 41, rfl⟩
abbrev main_call3_v1 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_call3_v5 : Ref sig .tc := ⟨.hbm, 46, rfl⟩
abbrev main_call3_v6 : Ref sig .tc := ⟨.hbm, 47, rfl⟩
abbrev main_call3_cst_1 : Ref sig .tc := ⟨.hbm, 48, rfl⟩
abbrev main_call3_v7 : Ref sig .tc := ⟨.hbm, 49, rfl⟩
abbrev main_call3_v8 : Ref sig .tc := ⟨.hbm, 50, rfl⟩
abbrev main_call3_v9 : Ref sig .tc := ⟨.hbm, 51, rfl⟩
abbrev main_call3_v10 : Ref sig .tc := ⟨.hbm, 52, rfl⟩
abbrev main_v23 : Ref sig .tc := ⟨.hbm, 53, rfl⟩

abbrev nD : Nat := 1
abbrev τ : Topo := Topo.v7x

variable {F : FTy → Type} [FloatOps F]

class Facts₀ : Prop where
  bcast_S600_S1x600_1 : S600.BroadcastsInDim S1x600 (![1] : Fin 1 → Fin S1x600.rank)
  bcast_S1x600_S10000x600_0_1 : S1x600.BroadcastsInDim S10000x600 (![0, 1] : Fin 2 → Fin S10000x600.rank)
  bcast_S_S10000x600 : S_.BroadcastsInDim S10000x600 (![] : Fin 0 → Fin S10000x600.rank)
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  bcast_S4_S1x4_1 : S4.BroadcastsInDim S1x4 (![1] : Fin 1 → Fin S1x4.rank)
  bcast_S1x4_S10000x4_0_1 : S1x4.BroadcastsInDim S10000x4 (![0, 1] : Fin 2 → Fin S10000x4.rank)
  bcast_S_S10000x4 : S_.BroadcastsInDim S10000x4 (![] : Fin 0 → Fin S10000x4.rank)
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x600_S10000x600_1_0_0_1_n_n_wf : DotDims.WF S10000x128 S128x600 S10000x600 [1] [0] [0] [1] [] []
  dot_S10000x10000_S10000x600_S10000x600_1_0_0_1_n_n_wf : DotDims.WF S10000x10000 S10000x600 S10000x600 [1] [0] [0] [1] [] []
  dot_S10000x600_S600x16_S10000x16_1_0_0_1_n_n_wf : DotDims.WF S10000x600 S600x16 S10000x16 [1] [0] [0] [1] [] []
  dot_S10000x10000_S10000x16_S10000x16_1_0_0_1_n_n_wf : DotDims.WF S10000x10000 S10000x16 S10000x16 [1] [0] [0] [1] [] []
  dot_S10000x16_S16x4_S10000x4_1_0_0_1_n_n_wf : DotDims.WF S10000x16 S16x4 S10000x4 [1] [0] [0] [1] [] []
  dot_S10000x10000_S10000x4_S10000x4_1_0_0_1_n_n_wf : DotDims.WF S10000x10000 S10000x4 S10000x4 [1] [0] [0] [1] [] []
  dot_S10000x4_S4x16_S10000x16_1_0_0_1_n_n_wf : DotDims.WF S10000x4 S4x16 S10000x16 [1] [0] [0] [1] [] []

variable [Facts₀]

def dot_S10000x128_S128x600_S10000x600_1_0_0_1_n_n : DotDims S10000x128 S128x600 S10000x600 where
  lhsContracting := [1]
  rhsContracting := [0]
  lhsNonContracting := [0]
  rhsNonContracting := [1]
  lhsBatch := []
  rhsBatch := []
  wf := dot_S10000x128_S128x600_S10000x600_1_0_0_1_n_n_wf
def dot_S10000x10000_S10000x600_S10000x600_1_0_0_1_n_n : DotDims S10000x10000 S10000x600 S10000x600 where
  lhsContracting := [1]
  rhsContracting := [0]
  lhsNonContracting := [0]
  rhsNonContracting := [1]
  lhsBatch := []
  rhsBatch := []
  wf := dot_S10000x10000_S10000x600_S10000x600_1_0_0_1_n_n_wf
def dot_S10000x600_S600x16_S10000x16_1_0_0_1_n_n : DotDims S10000x600 S600x16 S10000x16 where
  lhsContracting := [1]
  rhsContracting := [0]
  lhsNonContracting := [0]
  rhsNonContracting := [1]
  lhsBatch := []
  rhsBatch := []
  wf := dot_S10000x600_S600x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x4_S10000x4_1_0_0_1_n_n : DotDims S10000x16 S16x4 S10000x4 where
  lhsContracting := [1]
  rhsContracting := [0]
  lhsNonContracting := [0]
  rhsNonContracting := [1]
  lhsBatch := []
  rhsBatch := []
  wf := dot_S10000x16_S16x4_S10000x4_1_0_0_1_n_n_wf
def dot_S10000x10000_S10000x4_S10000x4_1_0_0_1_n_n : DotDims S10000x10000 S10000x4 S10000x4 where
  lhsContracting := [1]
  rhsContracting := [0]
  lhsNonContracting := [0]
  rhsNonContracting := [1]
  lhsBatch := []
  rhsBatch := []
  wf := dot_S10000x10000_S10000x4_S10000x4_1_0_0_1_n_n_wf
def dot_S10000x4_S4x16_S10000x16_1_0_0_1_n_n : DotDims S10000x4 S4x16 S10000x16 where
  lhsContracting := [1]
  rhsContracting := [0]
  lhsNonContracting := [0]
  rhsNonContracting := [1]
  lhsBatch := []
  rhsBatch := []
  wf := dot_S10000x4_S4x16_S10000x16_1_0_0_1_n_n_wf

class Facts : Prop extends Facts₀ where

variable [Facts]
-- ==== Proof.Spec.lean ====
/-
  The mathematics of the four-layer graph convolution, on the extended reals, over plain `Fin`-indexed matrices.

  With `A` the dense adjacency, the network is
    H₁ = relu(A·(X·W₁) + b₁),  H₂ = relu(A·(H₁·W₂) + b₂),  H₃ = relu(A·(H₂·W₃) + b₃),
    out = log_softmax(A·(H₃·W₄) + b₄)   (row-wise).
  One side forms the first layer as (A·X)·W₁ and fuses each layer's trailing product with the next weight into
  the layer; the other forms A·(X·W₁) and keeps the products apart. The only law that separates them is the
  associativity of the triple product A·X·W₁, which on the extended reals needs the three factors finite
  (`mm_assoc_of_real`); every later layer is the same function of the same intermediate on both sides.
-/
import Mathlib.Data.EReal.Operations
import Mathlib.Algebra.BigOperators.Ring.Finset
import Idealize.ShloMosaic.PureOps.Ideal

noncomputable section

namespace Gcn

open Idealize.ShloMosaic

/-- The product of two matrices of extended reals. -/
def mm {a k b : ℕ} (A : Fin a → Fin k → EReal) (B : Fin k → Fin b → EReal) (i : Fin a) (j : Fin b) : EReal :=
  ∑ l : Fin k, A i l * B l j

/-- A row bias added to every row, then the positive part. -/
def reluBias {a b : ℕ} (Z : Fin a → Fin b → EReal) (β : Fin b → EReal) (i : Fin a) (j : Fin b) : EReal :=
  max (Z i j + β j) 0

/-- A layer with its trailing weight product fused in: relu(A·S + β)·W. -/
def layer {a n h o : ℕ} (A : Fin a → Fin n → EReal) (S : Fin n → Fin h → EReal) (β : Fin h → EReal)
    (W : Fin h → Fin o → EReal) : Fin a → Fin o → EReal :=
  mm (reluBias (mm A S) β) W

/-- The first layer as the kernel groups it: relu((A·X)·W₁ + b₁)·W₂. -/
def layer1K {a n f h o : ℕ} (A : Fin a → Fin n → EReal) (X : Fin n → Fin f → EReal) (W1 : Fin f → Fin h → EReal)
    (β : Fin h → EReal) (W2 : Fin h → Fin o → EReal) : Fin a → Fin o → EReal :=
  mm (reluBias (mm (mm A X) W1) β) W2

/-- The first layer as the reference groups it: relu(A·(X·W₁) + b₁)·W₂. -/
def layer1R {a n f h o : ℕ} (A : Fin a → Fin n → EReal) (X : Fin n → Fin f → EReal) (W1 : Fin f → Fin h → EReal)
    (β : Fin h → EReal) (W2 : Fin h → Fin o → EReal) : Fin a → Fin o → EReal :=
  mm (reluBias (mm A (mm X W1)) β) W2

/-- The bottom of the extended reals as both programs spell it: the float pattern of −∞. -/
abbrev negInf : EReal := Ideal.ofBits .f32 0xFF800000#32

/-- A row's maximum, folded from −∞. -/
def rowMax {a b : ℕ} (Z : Fin a → Fin b → EReal) (i : Fin a) : EReal :=
  (Finset.univ : Finset (Fin b)).fold max negInf (fun k => Z i k)

/-- Row-wise log-softmax in the shifted form both programs use: (z − M) − log Σ exp(z − M), M the row's maximum. -/
def logSoftmax {a b : ℕ} (Z : Fin a → Fin b → EReal) (i : Fin a) (j : Fin b) : EReal :=
  (Z i j - rowMax Z i) - Ideal.log (∑ k : Fin b, Ideal.exp (Z i k - rowMax Z i))

/-- The last layer: log_softmax(A·S + β). -/
def finalLayer {a n h : ℕ} (A : Fin a → Fin n → EReal) (S : Fin n → Fin h → EReal) (β : Fin h → EReal) :
    Fin a → Fin h → EReal :=
  logSoftmax (fun i j => mm A S i j + β j)

/-- The whole network from a first-layer output `S2`. -/
def tail {n : ℕ} (A : Fin n → Fin n → EReal) (S2 : Fin n → Fin 16 → EReal) (b2 : Fin 16 → EReal) (W3 : Fin 16 → Fin 4 → EReal)
    (b3 : Fin 4 → EReal) (W4 : Fin 4 → Fin 16 → EReal) (b4 : Fin 16 → EReal) : Fin n → Fin 16 → EReal :=
  finalLayer A (layer A (layer A S2 b2 W3) b3 W4) b4

/-! ## Each row of a layer's output depends on the same row of `A` only

A block of rows of `A` therefore gives the same rows of the output: what lets a strip of 400 rows be computed
apart from the others. -/

theorem mm_row {a a' k b : ℕ} (A : Fin a → Fin k → EReal) (A' : Fin a' → Fin k → EReal) (B : Fin k → Fin b → EReal)
    (i : Fin a) (i' : Fin a') (h : ∀ l, A i l = A' i' l) (j : Fin b) : mm A B i j = mm A' B i' j := by
  unfold mm; exact Finset.sum_congr rfl fun l _ => by rw [h l]

theorem layer_row {a a' n h o : ℕ} (A : Fin a → Fin n → EReal) (A' : Fin a' → Fin n → EReal) (S : Fin n → Fin h → EReal)
    (β : Fin h → EReal) (W : Fin h → Fin o → EReal) (i : Fin a) (i' : Fin a') (hA : ∀ l, A i l = A' i' l) (j : Fin o) :
    layer A S β W i j = layer A' S β W i' j := by
  unfold layer
  refine mm_row _ _ W i i' (fun l => ?_) j
  unfold reluBias
  rw [mm_row A A' S i i' hA l]

theorem layer1K_row {a a' n f h o : ℕ} (A : Fin a → Fin n → EReal) (A' : Fin a' → Fin n → EReal) (X : Fin n → Fin f → EReal)
    (W1 : Fin f → Fin h → EReal) (β : Fin h → EReal) (W2 : Fin h → Fin o → EReal) (i : Fin a) (i' : Fin a')
    (hA : ∀ l, A i l = A' i' l) (j : Fin o) : layer1K A X W1 β W2 i j = layer1K A' X W1 β W2 i' j := by
  unfold layer1K
  refine mm_row _ _ W2 i i' (fun l => ?_) j
  unfold reluBias
  rw [mm_row (mm A X) (mm A' X) W1 i i' (fun p => mm_row A A' X i i' hA p) l]

theorem finalLayer_row {a a' n h : ℕ} (A : Fin a → Fin n → EReal) (A' : Fin a' → Fin n → EReal) (S : Fin n → Fin h → EReal)
    (β : Fin h → EReal) (i : Fin a) (i' : Fin a') (hA : ∀ l, A i l = A' i' l) (j : Fin h) :
    finalLayer A S β i j = finalLayer A' S β i' j := by
  have e : ∀ q, mm A S i q + β q = mm A' S i' q + β q := fun q => by rw [mm_row A A' S i i' hA q]
  unfold finalLayer logSoftmax rowMax
  simp only [e]

/-! ## Associativity of the triple product on finite entries -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- (A·X)·W = A·(X·W) when every entry of the three matrices is a real number. -/
theorem mm_assoc_of_real {a n f h : ℕ} (A : Fin a → Fin n → EReal) (X : Fin n → Fin f → EReal) (W : Fin f → Fin h → EReal)
    (hA : ∀ i j, ∃ r : ℝ, A i j = r) (hX : ∀ i j, ∃ r : ℝ, X i j = r) (hW : ∀ i j, ∃ r : ℝ, W i j = r) :
    mm (mm A X) W = mm A (mm X W) := by
  choose a ha using hA
  choose x hx using hX
  choose w hw using hW
  funext i j
  simp only [mm, ha, hx, hw, ← EReal.coe_mul, ← coe_sum]
  refine congrArg _ ?_
  simp only [Finset.sum_mul, Finset.mul_sum]
  rw [Finset.sum_comm]
  exact Finset.sum_congr rfl fun p _ => Finset.sum_congr rfl fun q _ => mul_assoc _ _ _

theorem layer1K_eq_layer1R {a n f h o : ℕ} (A : Fin a → Fin n → EReal) (X : Fin n → Fin f → EReal) (W1 : Fin f → Fin h → EReal)
    (β : Fin h → EReal) (W2 : Fin h → Fin o → EReal)
    (hA : ∀ i j, ∃ r : ℝ, A i j = r) (hX : ∀ i j, ∃ r : ℝ, X i j = r) (hW : ∀ i j, ∃ r : ℝ, W1 i j = r) :
    layer1K A X W1 β W2 = layer1R A X W1 β W2 := by
  unfold layer1K layer1R
  rw [mm_assoc_of_real A X W1 hA hX hW]

end Gcn

end
-- ==== Proof.Mats.lean ====
/-
  Arrays of extended reals over a literal shape, read as `Fin`-indexed matrices and vectors, and the two matrix
  products of the programs (the kernel's accumulate-into-zero product and the host's `dot_general`, both with the
  plain M×K by K×N dimension numbers) as the matrix product `Gcn.mm`.
-/
import proofs.«140558_g1520418423397_cont_week2b_307_3_alg».proof.Proof.Spec
import Idealize.ShloMosaic.Lib.ValueIdx
import Idealize.ShloMosaic.Lib.StackMember
import Idealize.ShloMosaic.PureOps.Ideal.Laws

noncomputable section

namespace Gcn

open Idealize.ShloMosaic Idealize.ShloMosaic.ValueIdx

/-- A rank-2 array as a matrix. -/
abbrev mat {r c : ℕ} (a : (⟨2, ![r, c]⟩ : Shape).Idx → EReal) : Fin r → Fin c → EReal := fun p q => a (ix2 p q)

/-- A matrix as a rank-2 array. -/
abbrev unmat {r c : ℕ} (M : Fin r → Fin c → EReal) : (⟨2, ![r, c]⟩ : Shape).Idx → EReal := fun i => M (i 0) (i 1)

/-- A rank-1 array as a vector. -/
abbrev vec {n : ℕ} (a : (⟨1, ![n]⟩ : Shape).Idx → EReal) : Fin n → EReal := fun q => a (ix1 q)

/-- The one row of a [1, n] array as a vector. -/
abbrev row {n : ℕ} (a : (⟨2, ![1, n]⟩ : Shape).Idx → EReal) : Fin n → EReal := fun q => a (ix2 0 q)

theorem unmat_mat {r c : ℕ} (a : (⟨2, ![r, c]⟩ : Shape).Idx → EReal) : unmat (mat a) = a :=
  funext fun i => congrArg a (eq_ix2 i).symm

theorem unmat_apply {r c : ℕ} (M : Fin r → Fin c → EReal) (p : Fin r) (q : Fin c) : unmat M (ix2 p q) = M p q := rfl

/-- The kernel's matrix product into the zero accumulator, with the plain dimension numbers, is `mm`. -/
theorem matmul_plain_zero {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (⟨2, ![m, n]⟩ : Shape) .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Gcn

end
-- ==== Proof.Region0.lean ====
/-
  The first layer's strip, read as mathematics: one grid point's output block of relu((A·X)·W₁ + b₁)·W₂ is the same
  rows of that layer over the whole adjacency, so the 25 strips of 400 rows tile the layer's [10000, 16] result.
-/
import proofs.«140558_g1520418423397_cont_week2b_307_3_alg».proof.Proof.Gen.KernelIdeal.Frame
import proofs.«140558_g1520418423397_cont_week2b_307_3_alg».proof.Proof.Mats
import Idealize.ShloMosaic.Lib.Pipeline.Value
import Idealize.ShloMosaic.Lib.ValueLayout

set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

/-! ## The body's value at an entry -/

theorem dot_strip : dot_S400x10000_S10000x128_S400x128_1_0_0_1_n_n = DotDims.plain 400 10000 128 := rfl
theorem dot_first : dot_S400x128_S128x600_S400x600_1_0_0_1_n_n = DotDims.plain 400 128 600 := rfl
theorem dot_second : dot_S400x600_S600x16_S400x16_1_0_0_1_n_n = DotDims.plain 400 600 16 := rfl

/-- Entry (p, q) of the strip's result is the first layer, grouped (A·X)·W₁, of the strip's rows of the adjacency. -/
theorem strip_apply (x0 : Vec Ideal S400x10000 .f32) (x1 : Vec Ideal S10000x128 .f32) (x3 : Vec Ideal S128x600 .f32)
    (x5 : Vec Ideal S1x600 .f32) (x11 : Vec Ideal S600x16 .f32) (p : Fin 400) (q : Fin 16) :
    k0_pay1 x0 x1 x3 x5 x11 (ix2 p q)
      = Gcn.layer1K (Gcn.mat x0) (Gcn.mat x1) (Gcn.mat x3) (Gcn.row x5) (Gcn.mat x11) p q := by
  unfold k0_pay1 Gcn.layer1K
  rw [dot_second, dot_first, dot_strip, shapeCast_self]
  refine (Gcn.matmul_plain_zero none _ x11 p q).trans ?_
  unfold Gcn.mm
  refine Finset.sum_congr rfl fun l _ => ?_
  refine congrArg (· * x11 (ix2 l q)) ?_
  unfold Gcn.reluBias
  rw [maximumf_apply, addf_apply, broadcast_apply, Gcn.matmul_plain_zero none _ x3 p l,
    broadcastTo_apply x5 broadcasts_S1x600_S400x600 (ix2 p l) (ix2 0 l) (fun a => by
      match a with
      | ⟨0, _⟩ => rfl
      | ⟨1, _⟩ => rfl)]
  show max (_ + _) (Ideal.ofBits .f32 0x00000000#32) = _
  rw [Ideal.ofBits_zero_f32]
  refine congrArg (fun z => max (z + x5 (ix2 0 l)) 0) ?_
  refine Finset.sum_congr rfl fun n _ => ?_
  refine congrArg (· * x3 (ix2 n l)) ?_
  exact Gcn.matmul_plain_zero none x0 x1 p n

/-! ## One grid point's block, and the whole array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 grid points: the adjacency's strip and the output's strip move together down
    the rows; every other window is its whole array at every point. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The features' block is the whole array at every point. -/
theorem blk_x (c : Dev nD) (t : Fin cfg0.N) : iblk0 V c 1 t = V c main_arg0 := by
  obtain ⟨-, -, e0, e1, -⟩ := idx_facts t
  funext y
  show V c main_arg0 (((cfg0.win 1).blk t).view.emb y) = V c main_arg0 y
  refine congrArg _ (funext fun a => Fin.ext ?_)
  match a with
  | ⟨0, _⟩ => show win0_1.index t (0 : Fin 2) * 10000 + 1 * (y 0).val = (y 0).val; rw [e0]; omega
  | ⟨1, _⟩ => show win0_1.index t (1 : Fin 2) * 128 + 1 * (y 1).val = (y 1).val; rw [e1]; omega

/-- So is the first weight matrix. -/
theorem blk_w1 (c : Dev nD) (t : Fin cfg0.N) : iblk0 V c 2 t = V c main_arg2 := by
  obtain ⟨-, -, -, -, e0, e1, -⟩ := idx_facts t
  funext y
  show V c main_arg2 (((cfg0.win 2).blk t).view.emb y) = V c main_arg2 y
  refine congrArg _ (funext fun a => Fin.ext ?_)
  match a with
  | ⟨0, _⟩ => show win0_2.index t (0 : Fin 2) * 128 + 1 * (y 0).val = (y 0).val; rw [e0]; omega
  | ⟨1, _⟩ => show win0_2.index t (1 : Fin 2) * 600 + 1 * (y 1).val = (y 1).val; rw [e1]; omega

/-- So is the bias row. -/
theorem blk_b (c : Dev nD) (t : Fin cfg0.N) : iblk0 V c 3 t = V c main_call0_v0 := by
  obtain ⟨-, -, -, -, -, -, e0, e1, -⟩ := idx_facts t
  funext y
  show V c main_call0_v0 (((cfg0.win 3).blk t).view.emb y) = V c main_call0_v0 y
  refine congrArg _ (funext fun a => Fin.ext ?_)
  match a with
  | ⟨0, _⟩ => show win0_3.index t (0 : Fin 2) * 1 + 1 * (y 0).val = (y 0).val; rw [e0]; omega
  | ⟨1, _⟩ => show win0_3.index t (1 : Fin 2) * 600 + 1 * (y 1).val = (y 1).val; rw [e1]; omega

/-- So is the second weight matrix. -/
theorem blk_w2 (c : Dev nD) (t : Fin cfg0.N) : iblk0 V c 4 t = V c main_arg4 := by
  obtain ⟨-, -, -, -, -, -, -, -, e0, e1, -⟩ := idx_facts t
  funext y
  show V c main_arg4 (((cfg0.win 4).blk t).view.emb y) = V c main_arg4 y
  refine congrArg _ (funext fun a => Fin.ext ?_)
  match a with
  | ⟨0, _⟩ => show win0_4.index t (0 : Fin 2) * 600 + 1 * (y 0).val = (y 0).val; rw [e0]; omega
  | ⟨1, _⟩ => show win0_4.index t (1 : Fin 2) * 16 + 1 * (y 1).val = (y 1).val; rw [e1]; omega

/-- Row p of the adjacency's strip at point t is the adjacency's row at the array row of the output block's row p. -/
theorem blk_a (c : Dev nD) (t : Fin cfg0.N) (p : Fin 400) (q : Fin 16) (n : Fin 10000) :
    iblk0 V c 0 t (ix2 p n) = V c main_arg1 (ix2 ((((cfg0.win 5).blk t).view.emb (ix2 p q)) 0) n) := by
  obtain ⟨e0, e1, -⟩ := idx_facts t
  show V c main_arg1 (((cfg0.win 0).blk t).view.emb (ix2 p n)) = _
  refine congrArg _ (funext fun a => Fin.ext ?_)
  match a with
  | ⟨0, _⟩ => show win0_0.index t (0 : Fin 2) * 400 + 1 * p.val = win0_5.index t (0 : Fin 2) * 400 + 1 * p.val; rw [e0]
  | ⟨1, _⟩ => show win0_0.index t (1 : Fin 2) * 10000 + 1 * n.val = n.val; rw [e1]; omega

/-- What point t writes back is block t of the first layer over the whole arrays. -/
theorem flushed_eq (c : Dev nD) (t : Fin cfg0.N) :
    (dat0 V c).flushed 5 t = ((cfg0.win 5).blk t).view.read (Elt Ideal)
      (Gcn.unmat (Gcn.layer1K (Gcn.mat (V c main_arg1)) (Gcn.mat (V c main_arg0)) (Gcn.mat (V c main_arg2))
          (Gcn.row (V c main_call0_v0)) (Gcn.mat (V c main_arg4)))) := by
  show (cfg0.win 5).cut (grid0.coords t) ((dat0 V c).after 5 t) = _
  rw [after0_5]
  unfold out0_5
  rw [View.canon_unit_zero hz]
  simp only [View.ld_unit_zero (S := S400x10000) hz, View.ld_unit_zero (S := S10000x128) hz,
    View.ld_unit_zero (S := S128x600) hz, View.ld_unit_zero (S := S1x600) hz, View.ld_unit_zero (S := S600x16) hz]
  rw [blk_x V c t, blk_w1 V c t, blk_b V c t, blk_w2 V c t]
  funext j
  obtain ⟨p, q, rfl⟩ : ∃ (p : Fin 400) (q : Fin 16), j = ix2 p q := ⟨j 0, j 1, eq_ix2 j⟩
  show k0_pay1 (iblk0 V c 0 t) (V c main_arg0) (V c main_arg2) (V c main_call0_v0) (V c main_arg4) (ix2 p q)
    = Gcn.unmat (Gcn.layer1K (Gcn.mat (V c main_arg1)) (Gcn.mat (V c main_arg0)) (Gcn.mat (V c main_arg2))
        (Gcn.row (V c main_call0_v0)) (Gcn.mat (V c main_arg4))) (((cfg0.win 5).blk t).view.emb (ix2 p q))
  refine (strip_apply _ _ _ _ _ p q).trans ?_
  have hq : q = (((cfg0.win 5).blk t).view.emb (ix2 p q)) 1 := Fin.ext (by
    obtain ⟨-, -, -, -, -, -, -, -, -, -, -, e⟩ := idx_facts t
    show q.val = win0_5.index t (1 : Fin 2) * 16 + 1 * q.val
    rw [e]; omega)
  refine (Gcn.layer1K_row _ (Gcn.mat (V c main_arg1)) _ _ _ _ p ((((cfg0.win 5).blk t).view.emb (ix2 p q)) 0)
    (fun n => blk_a V c t p q n) q).trans ?_
  exact congrArg (Gcn.layer1K (Gcn.mat (V c main_arg1)) (Gcn.mat (V c main_arg0)) (Gcn.mat (V c main_arg2))
    (Gcn.row (V c main_call0_v0)) (Gcn.mat (V c main_arg4)) ((((cfg0.win 5).blk t).view.emb (ix2 p q)) 0)) hq

/-- An index of the output array is in point t's block iff its row is in the block's 400 rows. -/
theorem mem_blk (t : Fin cfg0.N) (i : S10000x16.Idx) :
    i ∈ ((cfg0.win 5).blk t).view.set ↔ ∀ a : Fin 2, win0_5.index t a * S400x16.size a ≤ (i a).val
      ∧ (i a).val < win0_5.index t a * S400x16.size a + S400x16.size a := by
  show i ∈ ((View.whole main_call0_v1).slice (win0_5.rect t)).set ↔ _
  rw [View.set_slice_whole, Rect.mem_set_unit]
  exact Iff.rfl

/-- After the region its output array is the first layer, grouped (A·X)·W₁, of the arrays it was entered with. -/
theorem value (c : Dev nD) :
    (dat0 V c).arrAt 5 cfg0.N
      = Gcn.unmat (Gcn.layer1K (Gcn.mat (V c main_arg1)) (Gcn.mat (V c main_arg0)) (Gcn.mat (V c main_arg2))
          (Gcn.row (V c main_call0_v0)) (Gcn.mat (V c main_arg4))) := by
  refine (dat0 V c).arrAt_eq_of_cover 5 _ (fun t _ => flushed_eq V c t) (fun i => ?_)
  have hi0 : (i 0).val < 10000 := (i 0).isLt
  have hi1 : (i 1).val < 16 := (i 1).isLt
  have ht : (i 0).val / 400 < 25 := by omega
  refine ⟨⟨(i 0).val / 400, ht⟩, flush0_5 _, ?_⟩
  rw [mem_blk]
  obtain ⟨-, -, -, -, -, -, -, -, -, -, e0, e1⟩ := idx_facts ⟨(i 0).val / 400, ht⟩
  intro a
  match a with
  | ⟨0, _⟩ =>
    show win0_5.index ⟨(i 0).val / 400, ht⟩ (0 : Fin 2) * 400 ≤ (i 0).val
      ∧ (i 0).val < win0_5.index ⟨(i 0).val / 400, ht⟩ (0 : Fin 2) * 400 + 400
    rw [e0]; show (i 0).val / 400 * 400 ≤ (i 0).val ∧ (i 0).val < (i 0).val / 400 * 400 + 400; omega
  | ⟨1, _⟩ =>
    show win0_5.index ⟨(i 0).val / 400, ht⟩ (1 : Fin 2) * 16 ≤ (i 1).val
      ∧ (i 1).val < win0_5.index ⟨(i 0).val / 400, ht⟩ (1 : Fin 2) * 16 + 16
    rw [e1]; omega

end Cert.KernelIdeal.Region0

end
-- ==== Proof.Region1.lean ====
/-
  The second layer's strip, read as mathematics: one grid point's output block of the fused layer
  relu(A·S + β)·W is the same rows of the layer over the whole adjacency, so the 25 strips of 400 rows tile the
  layer's [10000, 4] result.
-/
import proofs.«140558_g1520418423397_cont_week2b_307_3_alg».proof.Proof.Gen.KernelIdeal.Frame
import proofs.«140558_g1520418423397_cont_week2b_307_3_alg».proof.Proof.Mats
import Idealize.ShloMosaic.Lib.Pipeline.Value
import Idealize.ShloMosaic.Lib.ValueLayout

set_option maxRecDepth 16384

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

/-! ## The body's value at an entry -/

theorem dot_strip : dot_S400x10000_S10000x16_S400x16_1_0_0_1_n_n = DotDims.plain 400 10000 16 := rfl
theorem dot_weight : dot_S400x16_S16x4_S400x4_1_0_0_1_n_n = DotDims.plain 400 16 4 := rfl

/-- Entry (p, q) of the strip's result is the fused layer of the strip's rows of the adjacency. -/
theorem strip_apply (x0 : Vec Ideal S400x10000 .f32) (x1 : Vec Ideal S10000x16 .f32) (x4 : Vec Ideal S1x16 .f32)
    (x10 : Vec Ideal S16x4 .f32) (p : Fin 400) (q : Fin 4) :
    k1_pay1 x0 x1 x4 x10 (ix2 p q) = Gcn.layer (Gcn.mat x0) (Gcn.mat x1) (Gcn.row x4) (Gcn.mat x10) p q := by
  unfold k1_pay1 Gcn.layer
  rw [dot_weight, dot_strip, shapeCast_self, shapeCast_self]
  refine (Gcn.matmul_plain_zero none _ x10 p q).trans ?_
  unfold Gcn.mm
  refine Finset.sum_congr rfl fun l _ => ?_
  refine congrArg (· * x10 (ix2 l q)) ?_
  unfold Gcn.reluBias
  rw [maximumf_apply, addf_apply, broadcast_apply, Gcn.matmul_plain_zero none x0 x1 p l,
    broadcastTo_apply x4 broadcasts_S1x16_S400x16 (ix2 p l) (ix2 0 l) (fun a => by
      match a with
      | ⟨0, _⟩ => rfl
      | ⟨1, _⟩ => rfl)]
  show max (_ + _) (Ideal.ofBits .f32 0x00000000#32) = _
  rw [Ideal.ofBits_zero_f32]

/-! ## One grid point's block, and the whole array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 grid points: the adjacency's strip and the output's strip move together down
    the rows; every other window is its whole array at every point. -/
theorem idx_facts : ∀ t : Fin cfg1.N,
    win1_0.index t (0 : Fin 2) = win1_4.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The layer's input block is the whole array at every point. -/
theorem blk_s (c : Dev nD) (t : Fin cfg1.N) : iblk1 V c 1 t = V c main_call0_v1 := by
  obtain ⟨-, -, e0, e1, -⟩ := idx_facts t
  funext y
  show V c main_call0_v1 (((cfg1.win 1).blk t).view.emb y) = V c main_call0_v1 y
  refine congrArg _ (funext fun a => Fin.ext ?_)
  match a with
  | ⟨0, _⟩ => show win1_1.index t (0 : Fin 2) * 10000 + 1 * (y 0).val = (y 0).val; rw [e0]; omega
  | ⟨1, _⟩ => show win1_1.index t (1 : Fin 2) * 16 + 1 * (y 1).val = (y 1).val; rw [e1]; omega

/-- So is the bias row. -/
theorem blk_b (c : Dev nD) (t : Fin cfg1.N) : iblk1 V c 2 t = V c main_call0_v2 := by
  obtain ⟨-, -, -, -, e0, e1, -⟩ := idx_facts t
  funext y
  show V c main_call0_v2 (((cfg1.win 2).blk t).view.emb y) = V c main_call0_v2 y
  refine congrArg _ (funext fun a => Fin.ext ?_)
  match a with
  | ⟨0, _⟩ => show win1_2.index t (0 : Fin 2) * 1 + 1 * (y 0).val = (y 0).val; rw [e0]; omega
  | ⟨1, _⟩ => show win1_2.index t (1 : Fin 2) * 16 + 1 * (y 1).val = (y 1).val; rw [e1]; omega

/-- So is the trailing weight matrix. -/
theorem blk_w (c : Dev nD) (t : Fin cfg1.N) : iblk1 V c 3 t = V c main_arg6 := by
  obtain ⟨-, -, -, -, -, -, e0, e1, -⟩ := idx_facts t
  funext y
  show V c main_arg6 (((cfg1.win 3).blk t).view.emb y) = V c main_arg6 y
  refine congrArg _ (funext fun a => Fin.ext ?_)
  match a with
  | ⟨0, _⟩ => show win1_3.index t (0 : Fin 2) * 16 + 1 * (y 0).val = (y 0).val; rw [e0]; omega
  | ⟨1, _⟩ => show win1_3.index t (1 : Fin 2) * 4 + 1 * (y 1).val = (y 1).val; rw [e1]; omega

/-- Row p of the adjacency's strip at point t is the adjacency's row at the array row of the output block's row p. -/
theorem blk_a (c : Dev nD) (t : Fin cfg1.N) (p : Fin 400) (q : Fin 4) (n : Fin 10000) :
    iblk1 V c 0 t (ix2 p n) = V c main_arg1 (ix2 ((((cfg1.win 4).blk t).view.emb (ix2 p q)) 0) n) := by
  obtain ⟨e0, e1, -⟩ := idx_facts t
  show V c main_arg1 (((cfg1.win 0).blk t).view.emb (ix2 p n)) = _
  refine congrArg _ (funext fun a => Fin.ext ?_)
  match a with
  | ⟨0, _⟩ => show win1_0.index t (0 : Fin 2) * 400 + 1 * p.val = win1_4.index t (0 : Fin 2) * 400 + 1 * p.val; rw [e0]
  | ⟨1, _⟩ => show win1_0.index t (1 : Fin 2) * 10000 + 1 * n.val = n.val; rw [e1]; omega

/-- What point t writes back is block t of the layer over the whole arrays. -/
theorem flushed_eq (c : Dev nD) (t : Fin cfg1.N) :
    (dat1 V c).flushed 4 t = ((cfg1.win 4).blk t).view.read (Elt Ideal)
      (Gcn.unmat (Gcn.layer (Gcn.mat (V c main_arg1)) (Gcn.mat (V c main_call0_v1)) (Gcn.row (V c main_call0_v2))
          (Gcn.mat (V c main_arg6)))) := by
  show (cfg1.win 4).cut (grid1.coords t) ((dat1 V c).after 4 t) = _
  rw [after1_4]
  unfold out1_4
  rw [View.canon_unit_zero hz]
  simp only [View.ld_unit_zero (S := S400x10000) hz, View.ld_unit_zero (S := S10000x16) hz, View.ld_unit_zero (S := S1x16) hz,
    View.ld_unit_zero (S := S16x4) hz]
  rw [blk_s V c t, blk_b V c t, blk_w V c t]
  funext j
  obtain ⟨p, q, rfl⟩ : ∃ (p : Fin 400) (q : Fin 4), j = ix2 p q := ⟨j 0, j 1, eq_ix2 j⟩
  show k1_pay1 (iblk1 V c 0 t) (V c main_call0_v1) (V c main_call0_v2) (V c main_arg6) (ix2 p q)
    = Gcn.unmat (Gcn.layer (Gcn.mat (V c main_arg1)) (Gcn.mat (V c main_call0_v1)) (Gcn.row (V c main_call0_v2))
        (Gcn.mat (V c main_arg6))) (((cfg1.win 4).blk t).view.emb (ix2 p q))
  refine (strip_apply _ _ _ _ p q).trans ?_
  have hq : q = (((cfg1.win 4).blk t).view.emb (ix2 p q)) 1 := Fin.ext (by
    obtain ⟨-, -, -, -, -, -, -, -, -, e⟩ := idx_facts t
    show q.val = win1_4.index t (1 : Fin 2) * 4 + 1 * q.val
    rw [e]; omega)
  refine (Gcn.layer_row _ (Gcn.mat (V c main_arg1)) _ _ _ p ((((cfg1.win 4).blk t).view.emb (ix2 p q)) 0)
    (fun n => blk_a V c t p q n) q).trans ?_
  exact congrArg (Gcn.layer (Gcn.mat (V c main_arg1)) (Gcn.mat (V c main_call0_v1)) (Gcn.row (V c main_call0_v2))
    (Gcn.mat (V c main_arg6)) ((((cfg1.win 4).blk t).view.emb (ix2 p q)) 0)) hq

/-- An index of the output array is in point t's block iff its row is in the block's 400 rows. -/
theorem mem_blk (t : Fin cfg1.N) (i : S10000x4.Idx) :
    i ∈ ((cfg1.win 4).blk t).view.set ↔ ∀ a : Fin 2, win1_4.index t a * S400x4.size a ≤ (i a).val
      ∧ (i a).val < win1_4.index t a * S400x4.size a + S400x4.size a := by
  show i ∈ ((View.whole main_call0_v3).slice (win1_4.rect t)).set ↔ _
  rw [View.set_slice_whole, Rect.mem_set_unit]
  exact Iff.rfl

/-- After the region its output array is the fused layer of the arrays it was entered with. -/
theorem value (c : Dev nD) :
    (dat1 V c).arrAt 4 cfg1.N
      = Gcn.unmat (Gcn.layer (Gcn.mat (V c main_arg1)) (Gcn.mat (V c main_call0_v1)) (Gcn.row (V c main_call0_v2))
          (Gcn.mat (V c main_arg6))) := by
  refine (dat1 V c).arrAt_eq_of_cover 4 _ (fun t _ => flushed_eq V c t) (fun i => ?_)
  have hi0 : (i 0).val < 10000 := (i 0).isLt
  have hi1 : (i 1).val < 4 := (i 1).isLt
  have ht : (i 0).val / 400 < 25 := by omega
  refine ⟨⟨(i 0).val / 400, ht⟩, flush1_4 _, ?_⟩
  rw [mem_blk]
  obtain ⟨-, -, -, -, -, -, -, -, e0, e1⟩ := idx_facts ⟨(i 0).val / 400, ht⟩
  intro a
  match a with
  | ⟨0, _⟩ =>
    show win1_4.index ⟨(i 0).val / 400, ht⟩ (0 : Fin 2) * 400 ≤ (i 0).val
      ∧ (i 0).val < win1_4.index ⟨(i 0).val / 400, ht⟩ (0 : Fin 2) * 400 + 400
    rw [e0]; show (i 0).val / 400 * 400 ≤ (i 0).val ∧ (i 0).val < (i 0).val / 400 * 400 + 400; omega
  | ⟨1, _⟩ =>
    show win1_4.index ⟨(i 0).val / 400, ht⟩ (1 : Fin 2) * 4 ≤ (i 1).val
      ∧ (i 1).val < win1_4.index ⟨(i 0).val / 400, ht⟩ (1 : Fin 2) * 4 + 4
    rw [e1]; omega

end Cert.KernelIdeal.Region1

end
-- ==== Proof.Region2.lean ====
/- The third layer's strip, read as mathematics: one grid point's output block of the fused layer relu(A·S + β)·W is the same rows of the layer over the whole adjacency, so the 25 strips of 400 rows tile the layer's [10000, 16] result. -/
import proofs.«140558_g1520418423397_cont_week2b_307_3_alg».proof.Proof.Gen.KernelIdeal.Frame
import proofs.«140558_g1520418423397_cont_week2b_307_3_alg».proof.Proof.Mats
import Idealize.ShloMosaic.Lib.Pipeline.Value
import Idealize.ShloMosaic.Lib.ValueLayout

set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

/-! ## The body's value at an entry -/

theorem dot_strip : dot_S400x10000_S10000x4_S400x4_1_0_0_1_n_n = DotDims.plain 400 10000 4 := rfl
theorem dot_weight : dot_S400x4_S4x16_S400x16_1_0_0_1_n_n = DotDims.plain 400 4 16 := rfl

/-- Entry (p, q) of the strip's result is the fused layer of the strip's rows of the adjacency. -/
theorem strip_apply (x0 : Vec Ideal S400x10000 .f32) (x1 : Vec Ideal S10000x4 .f32) (x4 : Vec Ideal S1x4 .f32)
    (x10 : Vec Ideal S4x16 .f32) (p : Fin 400) (q : Fin 16) :
    k2_pay1 x0 x1 x4 x10 (ix2 p q) = Gcn.layer (Gcn.mat x0) (Gcn.mat x1) (Gcn.row x4) (Gcn.mat x10) p q := by
  unfold k2_pay1 Gcn.layer
  rw [dot_weight, dot_strip, shapeCast_self, shapeCast_self]
  refine (Gcn.matmul_plain_zero none _ x10 p q).trans ?_
  unfold Gcn.mm
  refine Finset.sum_congr rfl fun l _ => ?_
  refine congrArg (· * x10 (ix2 l q)) ?_
  unfold Gcn.reluBias
  rw [maximumf_apply, addf_apply, broadcast_apply, Gcn.matmul_plain_zero none x0 x1 p l,
    broadcastTo_apply x4 broadcasts_S1x4_S400x4 (ix2 p l) (ix2 0 l) (fun a => by
      match a with
      | ⟨0, _⟩ => rfl
      | ⟨1, _⟩ => rfl)]
  show max (_ + _) (Ideal.ofBits .f32 0x00000000#32) = _
  rw [Ideal.ofBits_zero_f32]

/-! ## One grid point's block, and the whole array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 grid points: the adjacency's strip and the output's strip move together down
    the rows; every other window is its whole array at every point. -/
theorem idx_facts : ∀ t : Fin cfg2.N,
    win2_0.index t (0 : Fin 2) = win2_4.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The layer's input block is the whole array at every point. -/
theorem blk_s (c : Dev nD) (t : Fin cfg2.N) : iblk2 V c 1 t = V c main_call0_v3 := by
  obtain ⟨-, -, e0, e1, -⟩ := idx_facts t
  funext y
  show V c main_call0_v3 (((cfg2.win 1).blk t).view.emb y) = V c main_call0_v3 y
  refine congrArg _ (funext fun a => Fin.ext ?_)
  match a with
  | ⟨0, _⟩ => show win2_1.index t (0 : Fin 2) * 10000 + 1 * (y 0).val = (y 0).val; rw [e0]; omega
  | ⟨1, _⟩ => show win2_1.index t (1 : Fin 2) * 4 + 1 * (y 1).val = (y 1).val; rw [e1]; omega

/-- So is the bias row. -/
theorem blk_b (c : Dev nD) (t : Fin cfg2.N) : iblk2 V c 2 t = V c main_call0_v4 := by
  obtain ⟨-, -, -, -, e0, e1, -⟩ := idx_facts t
  funext y
  show V c main_call0_v4 (((cfg2.win 2).blk t).view.emb y) = V c main_call0_v4 y
  refine congrArg _ (funext fun a => Fin.ext ?_)
  match a with
  | ⟨0, _⟩ => show win2_2.index t (0 : Fin 2) * 1 + 1 * (y 0).val = (y 0).val; rw [e0]; omega
  | ⟨1, _⟩ => show win2_2.index t (1 : Fin 2) * 4 + 1 * (y 1).val = (y 1).val; rw [e1]; omega

/-- So is the trailing weight matrix. -/
theorem blk_w (c : Dev nD) (t : Fin cfg2.N) : iblk2 V c 3 t = V c main_arg8 := by
  obtain ⟨-, -, -, -, -, -, e0, e1, -⟩ := idx_facts t
  funext y
  show V c main_arg8 (((cfg2.win 3).blk t).view.emb y) = V c main_arg8 y
  refine congrArg _ (funext fun a => Fin.ext ?_)
  match a with
  | ⟨0, _⟩ => show win2_3.index t (0 : Fin 2) * 4 + 1 * (y 0).val = (y 0).val; rw [e0]; omega
  | ⟨1, _⟩ => show win2_3.index t (1 : Fin 2) * 16 + 1 * (y 1).val = (y 1).val; rw [e1]; omega

/-- Row p of the adjacency's strip at point t is the adjacency's row at the array row of the output block's row p. -/
theorem blk_a (c : Dev nD) (t : Fin cfg2.N) (p : Fin 400) (q : Fin 16) (n : Fin 10000) :
    iblk2 V c 0 t (ix2 p n) = V c main_arg1 (ix2 ((((cfg2.win 4).blk t).view.emb (ix2 p q)) 0) n) := by
  obtain ⟨e0, e1, -⟩ := idx_facts t
  show V c main_arg1 (((cfg2.win 0).blk t).view.emb (ix2 p n)) = _
  refine congrArg _ (funext fun a => Fin.ext ?_)
  match a with
  | ⟨0, _⟩ => show win2_0.index t (0 : Fin 2) * 400 + 1 * p.val = win2_4.index t (0 : Fin 2) * 400 + 1 * p.val; rw [e0]
  | ⟨1, _⟩ => show win2_0.index t (1 : Fin 2) * 10000 + 1 * n.val = n.val; rw [e1]; omega

/-- What point t writes back is block t of the layer over the whole arrays. -/
theorem flushed_eq (c : Dev nD) (t : Fin cfg2.N) :
    (dat2 V c).flushed 4 t = ((cfg2.win 4).blk t).view.read (Elt Ideal)
      (Gcn.unmat (Gcn.layer (Gcn.mat (V c main_arg1)) (Gcn.mat (V c main_call0_v3)) (Gcn.row (V c main_call0_v4))
          (Gcn.mat (V c main_arg8)))) := by
  show (cfg2.win 4).cut (grid2.coords t) ((dat2 V c).after 4 t) = _
  rw [after2_4]
  unfold out2_4
  rw [View.canon_unit_zero hz]
  simp only [View.ld_unit_zero (S := S400x10000) hz, View.ld_unit_zero (S := S10000x4) hz, View.ld_unit_zero (S := S1x4) hz,
    View.ld_unit_zero (S := S4x16) hz]
  rw [blk_s V c t, blk_b V c t, blk_w V c t]
  funext j
  obtain ⟨p, q, rfl⟩ : ∃ (p : Fin 400) (q : Fin 16), j = ix2 p q := ⟨j 0, j 1, eq_ix2 j⟩
  show k2_pay1 (iblk2 V c 0 t) (V c main_call0_v3) (V c main_call0_v4) (V c main_arg8) (ix2 p q)
    = Gcn.unmat (Gcn.layer (Gcn.mat (V c main_arg1)) (Gcn.mat (V c main_call0_v3)) (Gcn.row (V c main_call0_v4))
        (Gcn.mat (V c main_arg8))) (((cfg2.win 4).blk t).view.emb (ix2 p q))
  refine (strip_apply _ _ _ _ p q).trans ?_
  have hq : q = (((cfg2.win 4).blk t).view.emb (ix2 p q)) 1 := Fin.ext (by
    obtain ⟨-, -, -, -, -, -, -, -, -, e⟩ := idx_facts t
    show q.val = win2_4.index t (1 : Fin 2) * 16 + 1 * q.val
    rw [e]; omega)
  refine (Gcn.layer_row _ (Gcn.mat (V c main_arg1)) _ _ _ p ((((cfg2.win 4).blk t).view.emb (ix2 p q)) 0)
    (fun n => blk_a V c t p q n) q).trans ?_
  exact congrArg (Gcn.layer (Gcn.mat (V c main_arg1)) (Gcn.mat (V c main_call0_v3)) (Gcn.row (V c main_call0_v4))
    (Gcn.mat (V c main_arg8)) ((((cfg2.win 4).blk t).view.emb (ix2 p q)) 0)) hq

/-- An index of the output array is in point t's block iff its row is in the block's 400 rows. -/
theorem mem_blk (t : Fin cfg2.N) (i : S10000x16.Idx) :
    i ∈ ((cfg2.win 4).blk t).view.set ↔ ∀ a : Fin 2, win2_4.index t a * S400x16.size a ≤ (i a).val
      ∧ (i a).val < win2_4.index t a * S400x16.size a + S400x16.size a := by
  show i ∈ ((View.whole main_call0_v5).slice (win2_4.rect t)).set ↔ _
  rw [View.set_slice_whole, Rect.mem_set_unit]
  exact Iff.rfl

/-- After the region its output array is the fused layer of the arrays it was entered with. -/
theorem value (c : Dev nD) :
    (dat2 V c).arrAt 4 cfg2.N
      = Gcn.unmat (Gcn.layer (Gcn.mat (V c main_arg1)) (Gcn.mat (V c main_call0_v3)) (Gcn.row (V c main_call0_v4))
          (Gcn.mat (V c main_arg8))) := by
  refine (dat2 V c).arrAt_eq_of_cover 4 _ (fun t _ => flushed_eq V c t) (fun i => ?_)
  have hi0 : (i 0).val < 10000 := (i 0).isLt
  have hi1 : (i 1).val < 16 := (i 1).isLt
  have ht : (i 0).val / 400 < 25 := by omega
  refine ⟨⟨(i 0).val / 400, ht⟩, flush2_4 _, ?_⟩
  rw [mem_blk]
  obtain ⟨-, -, -, -, -, -, -, -, e0, e1⟩ := idx_facts ⟨(i 0).val / 400, ht⟩
  intro a
  match a with
  | ⟨0, _⟩ =>
    show win2_4.index ⟨(i 0).val / 400, ht⟩ (0 : Fin 2) * 400 ≤ (i 0).val
      ∧ (i 0).val < win2_4.index ⟨(i 0).val / 400, ht⟩ (0 : Fin 2) * 400 + 400
    rw [e0]; show (i 0).val / 400 * 400 ≤ (i 0).val ∧ (i 0).val < (i 0).val / 400 * 400 + 400; omega
  | ⟨1, _⟩ =>
    show win2_4.index ⟨(i 0).val / 400, ht⟩ (1 : Fin 2) * 16 ≤ (i 1).val
      ∧ (i 1).val < win2_4.index ⟨(i 0).val / 400, ht⟩ (1 : Fin 2) * 16 + 16
    rw [e1]; omega

end Cert.KernelIdeal.Region2

end
-- ==== Proof.Region3.lean ====
/-
  The last layer's strip, read as mathematics: one grid point's output block of the row-wise log-softmax of
  A·S + β is the same rows of that function over the whole adjacency (each output row depends on its own row of A
  only), so the 25 strips of 400 rows tile the [10000, 16] result.
-/
import proofs.«140558_g1520418423397_cont_week2b_307_3_alg».proof.Proof.Gen.KernelIdeal.Frame
import proofs.«140558_g1520418423397_cont_week2b_307_3_alg».proof.Proof.Mats
import Idealize.ShloMosaic.Lib.Pipeline.Value
import Idealize.ShloMosaic.Lib.ValueLayout

set_option maxRecDepth 16384

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

/-! ## The body's value at an entry -/

theorem dot_strip : dot_S400x10000_S10000x16_S400x16_1_0_0_1_n_n = DotDims.plain 400 10000 16 := rfl

/-- Row p with lane k put back is the entry (p, k). -/
theorem lift_row (h : S400x16.Reduces [1] S400) (p : Fin 400) (k : Fin (S400x16.size 1)) :
    h.lift (ix1 p) k = ix2 p (⟨k.val, k.isLt⟩ : Fin 16) := by
  funext c; apply Fin.ext
  fin_cases c <;> rfl

/-- The maximum over the 16 lanes from −∞, at row p, is the row's maximum. -/
theorem lane_max (z : FVec Ideal S400x16 .f32) (hφ : FKind.Formats .f32)
    (hm : (0xFF800000#32 : BitVec 32) = FKind.maximumf.neutral .f32 hφ) (p : Fin 400) :
    multiReduction (F := Ideal) .maximumf [1] S400 z 0xFF800000#32 reduces_S400x16_S400 hφ hm (ix1 p)
      = Gcn.rowMax (Gcn.mat z) p := by
  refine (Ideal.multiReduction_maximumf_single z 0xFF800000#32 reduces_S400x16_S400 hφ hm (ix1 p)).trans ?_
  unfold Gcn.rowMax
  have hf : (z ∘ reduces_S400x16_S400.lift (ix1 p)) = fun k : Fin 16 => z (ix2 p k) :=
    funext fun k => congrArg z (lift_row reduces_S400x16_S400 p k)
  exact congrArg (fun f => Finset.fold max (Ideal.ofBits .f32 0xFF800000#32) f (Finset.univ : Finset (Fin 16))) hf

/-- The sum over the 16 lanes from zero, at row p, is the row's sum. -/
theorem lane_sum (z : FVec Ideal S400x16 .f32) (hφ : FKind.Formats .f32)
    (hs : (0x00000000#32 : BitVec 32) = FKind.add.neutral .f32 hφ) (p : Fin 400) :
    multiReduction (F := Ideal) .add [1] S400 z 0x00000000#32 reduces_S400x16_S400 hφ hs (ix1 p)
      = ∑ k : Fin 16, z (ix2 p k) := by
  refine (Ideal.multiReduction_add_single z 0x00000000#32 reduces_S400x16_S400 hφ hs (ix1 p)).trans ?_
  exact Finset.sum_congr rfl fun k _ => congrArg z (lift_row reduces_S400x16_S400 p k)

/-- A vector of 400 entries kept as a column, read at (p, 0), is entry p. -/
theorem column_apply (v : FVec Ideal S400 .f32) (p : Fin 400) :
    shapeCast S400x1 v shapeCasts_S400_S400x1 (ix2 p (0 : Fin 1)) = v (ix1 p) := by
  refine shapeCast_apply v shapeCasts_S400_S400x1 (ix2 p (0 : Fin 1)) (ix1 p) ?_
  rw [Shape.rowMajor_val_two, Shape.rowMajor_val_one]
  show p.val = p.val * 1 + 0
  omega

/-- A column spread over the 16 lanes, read at (p, q), is the column's entry p. -/
theorem spread_apply (w : FVec Ideal S400x1 .f32) (p : Fin 400) (q : Fin 16) :
    broadcastTo S400x16 w broadcasts_S400x1_S400x16 (ix2 p q) = w (ix2 p (0 : Fin 1)) :=
  broadcastTo_apply w broadcasts_S400x1_S400x16 (ix2 p q) (ix2 p (0 : Fin 1)) (fun a => by
    match a with
    | ⟨0, _⟩ => rfl
    | ⟨1, _⟩ => rfl)

/-- The row maxima kept as a column and spread back over the lanes, at (p, q), is row p's maximum. -/
theorem spread_max_apply (z : FVec Ideal S400x16 .f32) (hφ : FKind.Formats .f32)
    (hm : (0xFF800000#32 : BitVec 32) = FKind.maximumf.neutral .f32 hφ) (p : Fin 400) (q : Fin 16) :
    broadcastTo S400x16 (shapeCast S400x1 (multiReduction (F := Ideal) .maximumf [1] S400 z 0xFF800000#32 reduces_S400x16_S400 hφ hm)
      shapeCasts_S400_S400x1) broadcasts_S400x1_S400x16 (ix2 p q) = Gcn.rowMax (Gcn.mat z) p :=
  (spread_apply _ p q).trans ((column_apply _ p).trans (lane_max z hφ hm p))

/-- The shifted log-softmax over the lanes as the body spells it, at (p, q): (z − M) − log Σ exp(z − M). -/
theorem softmax_apply (z : FVec Ideal S400x16 .f32) (hφ : FKind.Formats .f32)
    (hm : (0xFF800000#32 : BitVec 32) = FKind.maximumf.neutral .f32 hφ)
    (hs : (0x00000000#32 : BitVec 32) = FKind.add.neutral .f32 hφ) (p : Fin 400) (q : Fin 16) :
    subf
      (subf z (broadcastTo S400x16 (shapeCast S400x1 (multiReduction (F := Ideal) .maximumf [1] S400 z 0xFF800000#32
        reduces_S400x16_S400 hφ hm) shapeCasts_S400_S400x1) broadcasts_S400x1_S400x16))
      (broadcastTo S400x16 (log (shapeCast S400x1 (multiReduction (F := Ideal) .add [1] S400
        (exp (subf z (broadcastTo S400x16 (shapeCast S400x1 (multiReduction (F := Ideal) .maximumf [1] S400 z 0xFF800000#32
          reduces_S400x16_S400 hφ hm) shapeCasts_S400_S400x1) broadcasts_S400x1_S400x16)))
        0x00000000#32 reduces_S400x16_S400 hφ hs) shapeCasts_S400_S400x1)) broadcasts_S400x1_S400x16)
      (ix2 p q)
      = Gcn.logSoftmax (Gcn.mat z) p q := by
  unfold Gcn.logSoftmax
  rw [subf_apply, subf_apply, spread_max_apply z hφ hm p q, spread_apply]
  refine congrArg (fun s => (z (ix2 p q) - Gcn.rowMax (Gcn.mat z) p) - s) ?_
  show Ideal.log (shapeCast S400x1 _ shapeCasts_S400_S400x1 (ix2 p (0 : Fin 1))) = _
  rw [column_apply, lane_sum _ hφ hs p]
  refine congrArg Ideal.log (Finset.sum_congr rfl fun k _ => ?_)
  show Ideal.exp (subf z _ (ix2 p k)) = _
  rw [subf_apply, spread_max_apply z hφ hm p k]

/-- Entry (p, q) of the strip's result is the last layer of the strip's rows of the adjacency. -/
theorem strip_apply (x0 : Vec Ideal S400x10000 .f32) (x1 : Vec Ideal S10000x16 .f32) (x4 : Vec Ideal S1x16 .f32)
    (p : Fin 400) (q : Fin 16) :
    k3_pay1 x0 x1 x4 (ix2 p q) = Gcn.finalLayer (Gcn.mat x0) (Gcn.mat x1) (Gcn.row x4) p q := by
  unfold k3_pay1
  rw [dot_strip, shapeCast_self, shapeCast_self]
  refine (softmax_apply _ _ _ _ p q).trans ?_
  unfold Gcn.finalLayer
  refine congrArg (fun Z => Gcn.logSoftmax Z p q) (funext fun i => funext fun j => ?_)
  show addf _ _ (ix2 i j) = _
  rw [addf_apply, Gcn.matmul_plain_zero none x0 x1 i j,
    broadcastTo_apply x4 broadcasts_S1x16_S400x16 (ix2 i j) (ix2 0 j) (fun a => by
      match a with
      | ⟨0, _⟩ => rfl
      | ⟨1, _⟩ => rfl)]
  rfl

/-! ## One grid point's block, and the whole array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the 25 grid points: the adjacency's strip and the output's strip move together down
    the rows; every other window is its whole array at every point. -/
theorem idx_facts : ∀ t : Fin cfg3.N,
    win3_0.index t (0 : Fin 2) = win3_3.index t (0 : Fin 2) ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The layer's input block is the whole array at every point. -/
theorem blk_s (c : Dev nD) (t : Fin cfg3.N) : iblk3 V c 1 t = V c main_call0_v5 := by
  obtain ⟨-, -, e0, e1, -⟩ := idx_facts t
  funext y
  show V c main_call0_v5 (((cfg3.win 1).blk t).view.emb y) = V c main_call0_v5 y
  refine congrArg _ (funext fun a => Fin.ext ?_)
  match a with
  | ⟨0, _⟩ => show win3_1.index t (0 : Fin 2) * 10000 + 1 * (y 0).val = (y 0).val; rw [e0]; omega
  | ⟨1, _⟩ => show win3_1.index t (1 : Fin 2) * 16 + 1 * (y 1).val = (y 1).val; rw [e1]; omega

/-- So is the bias row. -/
theorem blk_b (c : Dev nD) (t : Fin cfg3.N) : iblk3 V c 2 t = V c main_call0_v6 := by
  obtain ⟨-, -, -, -, e0, e1, -⟩ := idx_facts t
  funext y
  show V c main_call0_v6 (((cfg3.win 2).blk t).view.emb y) = V c main_call0_v6 y
  refine congrArg _ (funext fun a => Fin.ext ?_)
  match a with
  | ⟨0, _⟩ => show win3_2.index t (0 : Fin 2) * 1 + 1 * (y 0).val = (y 0).val; rw [e0]; omega
  | ⟨1, _⟩ => show win3_2.index t (1 : Fin 2) * 16 + 1 * (y 1).val = (y 1).val; rw [e1]; omega

/-- Row p of the adjacency's strip at point t is the adjacency's row at the array row of the output block's row p. -/
theorem blk_a (c : Dev nD) (t : Fin cfg3.N) (p : Fin 400) (q : Fin 16) (n : Fin 10000) :
    iblk3 V c 0 t (ix2 p n) = V c main_arg1 (ix2 ((((cfg3.win 3).blk t).view.emb (ix2 p q)) 0) n) := by
  obtain ⟨e0, e1, -⟩ := idx_facts t
  show V c main_arg1 (((cfg3.win 0).blk t).view.emb (ix2 p n)) = _
  refine congrArg _ (funext fun a => Fin.ext ?_)
  match a with
  | ⟨0, _⟩ => show win3_0.index t (0 : Fin 2) * 400 + 1 * p.val = win3_3.index t (0 : Fin 2) * 400 + 1 * p.val; rw [e0]
  | ⟨1, _⟩ => show win3_0.index t (1 : Fin 2) * 10000 + 1 * n.val = n.val; rw [e1]; omega

/-- What point t writes back is block t of the last layer over the whole arrays. -/
theorem flushed_eq (c : Dev nD) (t : Fin cfg3.N) :
    (dat3 V c).flushed 3 t = ((cfg3.win 3).blk t).view.read (Elt Ideal)
      (Gcn.unmat (Gcn.finalLayer (Gcn.mat (V c main_arg1)) (Gcn.mat (V c main_call0_v5)) (Gcn.row (V c main_call0_v6)))) := by
  show (cfg3.win 3).cut (grid3.coords t) ((dat3 V c).after 3 t) = _
  rw [after3_3]
  unfold out3_3
  rw [View.canon_unit_zero hz]
  simp only [View.ld_unit_zero (S := S400x10000) hz, View.ld_unit_zero (S := S10000x16) hz, View.ld_unit_zero (S := S1x16) hz]
  rw [blk_s V c t, blk_b V c t]
  funext j
  obtain ⟨p, q, rfl⟩ : ∃ (p : Fin 400) (q : Fin 16), j = ix2 p q := ⟨j 0, j 1, eq_ix2 j⟩
  show k3_pay1 (iblk3 V c 0 t) (V c main_call0_v5) (V c main_call0_v6) (ix2 p q)
    = Gcn.unmat (Gcn.finalLayer (Gcn.mat (V c main_arg1)) (Gcn.mat (V c main_call0_v5)) (Gcn.row (V c main_call0_v6)))
        (((cfg3.win 3).blk t).view.emb (ix2 p q))
  refine (strip_apply _ _ _ p q).trans ?_
  have hq : q = (((cfg3.win 3).blk t).view.emb (ix2 p q)) 1 := Fin.ext (by
    obtain ⟨-, -, -, -, -, -, -, e⟩ := idx_facts t
    show q.val = win3_3.index t (1 : Fin 2) * 16 + 1 * q.val
    rw [e]; omega)
  refine (Gcn.finalLayer_row _ (Gcn.mat (V c main_arg1)) _ _ p ((((cfg3.win 3).blk t).view.emb (ix2 p q)) 0)
    (fun n => blk_a V c t p q n) q).trans ?_
  exact congrArg (Gcn.finalLayer (Gcn.mat (V c main_arg1)) (Gcn.mat (V c main_call0_v5)) (Gcn.row (V c main_call0_v6))
    ((((cfg3.win 3).blk t).view.emb (ix2 p q)) 0)) hq

/-- An index of the output array is in point t's block iff its row is in the block's 400 rows. -/
theorem mem_blk (t : Fin cfg3.N) (i : S10000x16.Idx) :
    i ∈ ((cfg3.win 3).blk t).view.set ↔ ∀ a : Fin 2, win3_3.index t a * S400x16.size a ≤ (i a).val
      ∧ (i a).val < win3_3.index t a * S400x16.size a + S400x16.size a := by
  show i ∈ ((View.whole main_v0).slice (win3_3.rect t)).set ↔ _
  rw [View.set_slice_whole, Rect.mem_set_unit]
  exact Iff.rfl

/-- After the region its output array is the last layer of the arrays it was entered with. -/
theorem value (c : Dev nD) :
    (dat3 V c).arrAt 3 cfg3.N
      = Gcn.unmat (Gcn.finalLayer (Gcn.mat (V c main_arg1)) (Gcn.mat (V c main_call0_v5)) (Gcn.row (V c main_call0_v6))) := by
  refine (dat3 V c).arrAt_eq_of_cover 3 _ (fun t _ => flushed_eq V c t) (fun i => ?_)
  have hi0 : (i 0).val < 10000 := (i 0).isLt
  have hi1 : (i 1).val < 16 := (i 1).isLt
  have ht : (i 0).val / 400 < 25 := by omega
  refine ⟨⟨(i 0).val / 400, ht⟩, flush3_3 _, ?_⟩
  rw [mem_blk]
  obtain ⟨-, -, -, -, -, -, e0, e1⟩ := idx_facts ⟨(i 0).val / 400, ht⟩
  intro a
  match a with
  | ⟨0, _⟩ =>
    show win3_3.index ⟨(i 0).val / 400, ht⟩ (0 : Fin 2) * 400 ≤ (i 0).val
      ∧ (i 0).val < win3_3.index ⟨(i 0).val / 400, ht⟩ (0 : Fin 2) * 400 + 400
    rw [e0]; show (i 0).val / 400 * 400 ≤ (i 0).val ∧ (i 0).val < (i 0).val / 400 * 400 + 400; omega
  | ⟨1, _⟩ =>
    show win3_3.index ⟨(i 0).val / 400, ht⟩ (1 : Fin 2) * 16 ≤ (i 1).val
      ∧ (i 1).val < win3_3.index ⟨(i 0).val / 400, ht⟩ (1 : Fin 2) * 16 + 16
    rw [e1]; omega

end Cert.KernelIdeal.Region3

end
-- ==== Proof.Net.lean ====
/-
  The whole network as one function of its ten argument arrays, in the kernel's grouping of the first layer
  ((A·X)·W₁) and in the reference's (A·(X·W₁)); equal when the adjacency, the features and the first weight
  matrix have finite entries.
-/
import proofs.«140558_g1520418423397_cont_week2b_307_3_alg».proof.Proof.Mats

noncomputable section

namespace Gcn

open Idealize.ShloMosaic Idealize.ShloMosaic.ValueIdx

/-- The network with the first layer grouped (A·X)·W₁. -/
def netK (x : (⟨2, ![10000, 128]⟩ : Shape).Idx → EReal) (adj : (⟨2, ![10000, 10000]⟩ : Shape).Idx → EReal)
    (w1 : (⟨2, ![128, 600]⟩ : Shape).Idx → EReal) (b1 : (⟨1, ![600]⟩ : Shape).Idx → EReal)
    (w2 : (⟨2, ![600, 16]⟩ : Shape).Idx → EReal) (b2 : (⟨1, ![16]⟩ : Shape).Idx → EReal)
    (w3 : (⟨2, ![16, 4]⟩ : Shape).Idx → EReal) (b3 : (⟨1, ![4]⟩ : Shape).Idx → EReal)
    (w4 : (⟨2, ![4, 16]⟩ : Shape).Idx → EReal) (b4 : (⟨1, ![16]⟩ : Shape).Idx → EReal) :
    (⟨2, ![10000, 16]⟩ : Shape).Idx → EReal :=
  unmat (tail (mat adj) (layer1K (mat adj) (mat x) (mat w1) (vec b1) (mat w2)) (vec b2) (mat w3) (vec b3) (mat w4) (vec b4))

/-- The network with the first layer grouped A·(X·W₁). -/
def netR (x : (⟨2, ![10000, 128]⟩ : Shape).Idx → EReal) (adj : (⟨2, ![10000, 10000]⟩ : Shape).Idx → EReal)
    (w1 : (⟨2, ![128, 600]⟩ : Shape).Idx → EReal) (b1 : (⟨1, ![600]⟩ : Shape).Idx → EReal)
    (w2 : (⟨2, ![600, 16]⟩ : Shape).Idx → EReal) (b2 : (⟨1, ![16]⟩ : Shape).Idx → EReal)
    (w3 : (⟨2, ![16, 4]⟩ : Shape).Idx → EReal) (b3 : (⟨1, ![4]⟩ : Shape).Idx → EReal)
    (w4 : (⟨2, ![4, 16]⟩ : Shape).Idx → EReal) (b4 : (⟨1, ![16]⟩ : Shape).Idx → EReal) :
    (⟨2, ![10000, 16]⟩ : Shape).Idx → EReal :=
  unmat (tail (mat adj) (layer1R (mat adj) (mat x) (mat w1) (vec b1) (mat w2)) (vec b2) (mat w3) (vec b3) (mat w4) (vec b4))

/-- The two groupings agree on finite features, adjacency and first weights. -/
theorem netK_eq_netR (x : (⟨2, ![10000, 128]⟩ : Shape).Idx → EReal) (adj : (⟨2, ![10000, 10000]⟩ : Shape).Idx → EReal)
    (w1 : (⟨2, ![128, 600]⟩ : Shape).Idx → EReal) (b1 : (⟨1, ![600]⟩ : Shape).Idx → EReal)
    (w2 : (⟨2, ![600, 16]⟩ : Shape).Idx → EReal) (b2 : (⟨1, ![16]⟩ : Shape).Idx → EReal)
    (w3 : (⟨2, ![16, 4]⟩ : Shape).Idx → EReal) (b3 : (⟨1, ![4]⟩ : Shape).Idx → EReal)
    (w4 : (⟨2, ![4, 16]⟩ : Shape).Idx → EReal) (b4 : (⟨1, ![16]⟩ : Shape).Idx → EReal)
    (hx : ∀ i, ∃ r : ℝ, x i = r) (hadj : ∀ i, ∃ r : ℝ, adj i = r) (hw1 : ∀ i, ∃ r : ℝ, w1 i = r) :
    netK x adj w1 b1 w2 b2 w3 b3 w4 b4 = netR x adj w1 b1 w2 b2 w3 b3 w4 b4 := by
  unfold netK netR
  rw [layer1K_eq_layer1R (mat adj) (mat x) (mat w1) (vec b1) (mat w2) (fun i j => hadj _) (fun i j => hx _) (fun i j => hw1 _)]

end Gcn

end
-- ==== Proof.Chain.lean ====
/-
  The kernel's program from launch to return, read as mathematics. Its four regions pass their results on through
  three intermediate arrays; between the regions the host only reshapes a bias vector [n] into a row [1, n].
  Walking the buffer contents boundary by boundary: each region's inputs are the launch arguments (no stretch and
  no region writes an argument), the reshaped bias of its own layer, and the array the region before it left; so
  the last array is the network `Gcn.netK` of the ten arguments.
-/
import proofs.«140558_g1520418423397_cont_week2b_307_3_alg».proof.Proof.Gen.KernelIdeal.Frame
import proofs.«140558_g1520418423397_cont_week2b_307_3_alg».proof.Proof.Region0
import proofs.«140558_g1520418423397_cont_week2b_307_3_alg».proof.Proof.Region1
import proofs.«140558_g1520418423397_cont_week2b_307_3_alg».proof.Proof.Region2
import proofs.«140558_g1520418423397_cont_week2b_307_3_alg».proof.Proof.Region3
import proofs.«140558_g1520418423397_cont_week2b_307_3_alg».proof.Proof.Net
import Idealize.ShloMosaic.Lib.StableHlo.Run
import Idealize.ShloMosaic.Lib.Pipeline.Value

set_option maxRecDepth 16384

noncomputable section

namespace Cert.KernelIdeal.Chain

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## A bias vector reshaped into a one-row matrix -/

/-- The one row of a vector reshaped [n] → [1, n] is the vector. -/
theorem row_shapeCast {n : ℕ} (b : (⟨1, ![n]⟩ : Shape).Idx → EReal) (h : (⟨1, ![n]⟩ : Shape).ShapeCasts ⟨2, ![1, n]⟩) :
    Gcn.row (shapeCast (⟨2, ![1, n]⟩ : Shape) b h) = Gcn.vec b := by
  funext q
  refine shapeCast_apply b h (ix2 0 q) (ix1 q) ?_
  rw [Shape.rowMajor_val_one, Shape.rowMajor_val_two]
  show q.val = (0 : Fin 1).val * _ + q.val
  simp

/-! ## The host stretches: one reshape each -/

theorem host0_keep (W : Valuation τ sig (Elt Ideal)) (b : Ref sig .tc) (hb : b ≠ main_call0_v0) :
    StableHlo.after hostOps0 W (Proc.devRef .tc b) = W (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

theorem host1_keep (W : Valuation τ sig (Elt Ideal)) (b : Ref sig .tc) (hb : b ≠ main_call0_v2) :
    StableHlo.after hostOps1 W (Proc.devRef .tc b) = W (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

theorem host2_keep (W : Valuation τ sig (Elt Ideal)) (b : Ref sig .tc) (hb : b ≠ main_call0_v4) :
    StableHlo.after hostOps2 W (Proc.devRef .tc b) = W (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

theorem host3_keep (W : Valuation τ sig (Elt Ideal)) (b : Ref sig .tc) (hb : b ≠ main_call0_v6) :
    StableHlo.after hostOps3 W (Proc.devRef .tc b) = W (Proc.devRef .tc b) :=
  StableHlo.after_of_forall_not_mem (b := Proc.devRef .tc b) _ _ (List.forall_iff_forall_mem.mp (by
    simp only [hostOps3, List.Forall, StableHlo.reshape_writes, Finset.mem_singleton]
    exact StableHlo.devRef_ne_of_ne hb))

theorem host0_bias (W : Valuation τ sig (Elt Ideal)) :
    StableHlo.after hostOps0 W (Proc.devRef .tc main_call0_v0)
      = shapeCast S1x600 (W (Proc.devRef .tc main_arg3)) shapeCasts_S600_S1x600 := by
  after_results; rfl

theorem host1_bias (W : Valuation τ sig (Elt Ideal)) :
    StableHlo.after hostOps1 W (Proc.devRef .tc main_call0_v2)
      = shapeCast S1x16 (W (Proc.devRef .tc main_arg5)) shapeCasts_S16_S1x16 := by
  after_results; rfl

theorem host2_bias (W : Valuation τ sig (Elt Ideal)) :
    StableHlo.after hostOps2 W (Proc.devRef .tc main_call0_v4)
      = shapeCast S1x4 (W (Proc.devRef .tc main_arg7)) shapeCasts_S4_S1x4 := by
  after_results; rfl

theorem host3_bias (W : Valuation τ sig (Elt Ideal)) :
    StableHlo.after hostOps3 W (Proc.devRef .tc main_call0_v6)
      = shapeCast S1x16 (W (Proc.devRef .tc main_arg9)) shapeCasts_S16_S1x16 := by
  after_results; rfl

/-! ## The walk -/

variable (c : Dev nD)

/-- The first layer's output as mathematics. -/
abbrev s2 : Fin 10000 → Fin 16 → EReal :=
  Gcn.layer1K (Gcn.mat (m ((c : Thread nD τ).loc main_arg1))) (Gcn.mat (m ((c : Thread nD τ).loc main_arg0)))
    (Gcn.mat (m ((c : Thread nD τ).loc main_arg2))) (Gcn.vec (m ((c : Thread nD τ).loc main_arg3)))
    (Gcn.mat (m ((c : Thread nD τ).loc main_arg4)))

/-- The second layer's. -/
abbrev s3 : Fin 10000 → Fin 4 → EReal :=
  Gcn.layer (Gcn.mat (m ((c : Thread nD τ).loc main_arg1))) (s2 m c) (Gcn.vec (m ((c : Thread nD τ).loc main_arg5)))
    (Gcn.mat (m ((c : Thread nD τ).loc main_arg6)))

/-- The third layer's. -/
abbrev s4 : Fin 10000 → Fin 16 → EReal :=
  Gcn.layer (Gcn.mat (m ((c : Thread nD τ).loc main_arg1))) (s3 m c) (Gcn.vec (m ((c : Thread nD τ).loc main_arg7)))
    (Gcn.mat (m ((c : Thread nD τ).loc main_arg8)))

/-- An argument that neither the first stretch nor the first region writes, at the first region's exit. -/
theorem arg_at2 (b : Ref sig .tc) (h0 : b ≠ main_call0_v0) (hr : ∀ w, Pipeline.arrRef spec0 w ≠ b) :
    W2 m ρ c (Proc.devRef .tc b) = m ((c : Thread nD τ).loc b) :=
  (W2_of_ne m ρ c b hr).trans (host0_keep _ b h0)

theorem arg_at3 (b : Ref sig .tc) (h0 : b ≠ main_call0_v0) (hr : ∀ w, Pipeline.arrRef spec0 w ≠ b) (h1 : b ≠ main_call0_v2) :
    W3 m ρ c (Proc.devRef .tc b) = m ((c : Thread nD τ).loc b) :=
  (host1_keep _ b h1).trans (arg_at2 m ρ c b h0 hr)

theorem arg_at4 (b : Ref sig .tc) (h0 : b ≠ main_call0_v0) (hr : ∀ w, Pipeline.arrRef spec0 w ≠ b) (h1 : b ≠ main_call0_v2)
    (hr1 : ∀ w, Pipeline.arrRef spec1 w ≠ b) : W4 m ρ c (Proc.devRef .tc b) = m ((c : Thread nD τ).loc b) :=
  (W4_of_ne m ρ c b hr1).trans (arg_at3 m ρ c b h0 hr h1)

theorem arg_at5 (b : Ref sig .tc) (h0 : b ≠ main_call0_v0) (hr : ∀ w, Pipeline.arrRef spec0 w ≠ b) (h1 : b ≠ main_call0_v2)
    (hr1 : ∀ w, Pipeline.arrRef spec1 w ≠ b) (h2 : b ≠ main_call0_v4) :
    W5 m ρ c (Proc.devRef .tc b) = m ((c : Thread nD τ).loc b) :=
  (host2_keep _ b h2).trans (arg_at4 m ρ c b h0 hr h1 hr1)

theorem arg_at6 (b : Ref sig .tc) (h0 : b ≠ main_call0_v0) (hr : ∀ w, Pipeline.arrRef spec0 w ≠ b) (h1 : b ≠ main_call0_v2)
    (hr1 : ∀ w, Pipeline.arrRef spec1 w ≠ b) (h2 : b ≠ main_call0_v4) (hr2 : ∀ w, Pipeline.arrRef spec2 w ≠ b) :
    W6 m ρ c (Proc.devRef .tc b) = m ((c : Thread nD τ).loc b) :=
  (W6_of_ne m ρ c b hr2).trans (arg_at5 m ρ c b h0 hr h1 hr1 h2)

/-- The adjacency, which every region reads through its first window and none writes, at each region's entry. -/
theorem adj1 : V1 m ρ c main_arg1 = m ((c : Thread nD τ).loc main_arg1) := host0_keep _ main_arg1 (by decide)
theorem adj3 : V3 m ρ c main_arg1 = m ((c : Thread nD τ).loc main_arg1) :=
  (host1_keep _ main_arg1 (by decide)).trans (((W2_arr m ρ c 0).trans (((dat0 (V1 m ρ) c).arrAt_in 0 rfl _).trans (A_eq0 (V1 m ρ) c 0))).trans
    (adj1 m ρ c))
theorem adj5 : V5 m ρ c main_arg1 = m ((c : Thread nD τ).loc main_arg1) :=
  (host2_keep _ main_arg1 (by decide)).trans (((W4_arr m ρ c 0).trans (((dat1 (V3 m ρ) c).arrAt_in 0 rfl _).trans (A_eq1 (V3 m ρ) c 0))).trans
    (adj3 m ρ c))
theorem adj7 : V7 m ρ c main_arg1 = m ((c : Thread nD τ).loc main_arg1) :=
  (host3_keep _ main_arg1 (by decide)).trans (((W6_arr m ρ c 0).trans (((dat2 (V5 m ρ) c).arrAt_in 0 rfl _).trans (A_eq2 (V5 m ρ) c 0))).trans
    (adj5 m ρ c))

/-- Region 0 leaves the first layer. -/
theorem out0 : W2 m ρ c (Proc.devRef .tc main_call0_v1) = Gcn.unmat (s2 m c) := by
  refine (W2_arr m ρ c 5).trans ((Region0.value (V1 m ρ) c).trans ?_)
  have eb : Gcn.row (V1 m ρ c main_call0_v0) = Gcn.vec (m ((c : Thread nD τ).loc main_arg3)) := by
    rw [show V1 m ρ c main_call0_v0 = shapeCast S1x600 (m ((c : Thread nD τ).loc main_arg3)) shapeCasts_S600_S1x600 from host0_bias _]
    exact row_shapeCast _ _
  rw [adj1 m ρ c, eb, show V1 m ρ c main_arg0 = m ((c : Thread nD τ).loc main_arg0) from host0_keep _ main_arg0 (by decide),
    show V1 m ρ c main_arg2 = m ((c : Thread nD τ).loc main_arg2) from host0_keep _ main_arg2 (by decide),
    show V1 m ρ c main_arg4 = m ((c : Thread nD τ).loc main_arg4) from host0_keep _ main_arg4 (by decide)]

/-- Region 1 leaves the second layer. -/
theorem out1 : W4 m ρ c (Proc.devRef .tc main_call0_v3) = Gcn.unmat (s3 m c) := by
  refine (W4_arr m ρ c 4).trans ((Region1.value (V3 m ρ) c).trans ?_)
  have eb : Gcn.row (V3 m ρ c main_call0_v2) = Gcn.vec (m ((c : Thread nD τ).loc main_arg5)) := by
    rw [show V3 m ρ c main_call0_v2 = shapeCast S1x16 (W2 m ρ c (Proc.devRef .tc main_arg5)) shapeCasts_S16_S1x16 from host1_bias _,
      row_shapeCast, arg_at2 m ρ c main_arg5 (by decide) (by decide)]
  have es : V3 m ρ c main_call0_v1 = Gcn.unmat (s2 m c) := (host1_keep _ main_call0_v1 (by decide)).trans (out0 m ρ c)
  rw [adj3 m ρ c, eb, es, show V3 m ρ c main_arg6 = m ((c : Thread nD τ).loc main_arg6) from
    arg_at3 m ρ c main_arg6 (by decide) (by decide) (by decide)]

/-- Region 2 leaves the third layer. -/
theorem out2 : W6 m ρ c (Proc.devRef .tc main_call0_v5) = Gcn.unmat (s4 m c) := by
  refine (W6_arr m ρ c 4).trans ((Region2.value (V5 m ρ) c).trans ?_)
  have eb : Gcn.row (V5 m ρ c main_call0_v4) = Gcn.vec (m ((c : Thread nD τ).loc main_arg7)) := by
    rw [show V5 m ρ c main_call0_v4 = shapeCast S1x4 (W4 m ρ c (Proc.devRef .tc main_arg7)) shapeCasts_S4_S1x4 from host2_bias _,
      row_shapeCast, arg_at4 m ρ c main_arg7 (by decide) (by decide) (by decide) (by decide)]
  have es : V5 m ρ c main_call0_v3 = Gcn.unmat (s3 m c) := (host2_keep _ main_call0_v3 (by decide)).trans (out1 m ρ c)
  rw [adj5 m ρ c, eb, es, show V5 m ρ c main_arg8 = m ((c : Thread nD τ).loc main_arg8) from
    arg_at5 m ρ c main_arg8 (by decide) (by decide) (by decide) (by decide) (by decide)]

/-- Region 3 leaves the network's result: the run's last contents of the result buffer are `Gcn.netK` of the arguments. -/
theorem result : W8 m ρ c (Proc.devRef .tc main_v0)
    = Gcn.netK (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  refine (W8_arr m ρ c 3).trans ((Region3.value (V7 m ρ) c).trans ?_)
  have eb : Gcn.row (V7 m ρ c main_call0_v6) = Gcn.vec (m ((c : Thread nD τ).loc main_arg9)) := by
    rw [show V7 m ρ c main_call0_v6 = shapeCast S1x16 (W6 m ρ c (Proc.devRef .tc main_arg9)) shapeCasts_S16_S1x16 from host3_bias _,
      row_shapeCast, arg_at6 m ρ c main_arg9 (by decide) (by decide) (by decide) (by decide) (by decide) (by decide)]
  have es : V7 m ρ c main_call0_v5 = Gcn.unmat (s4 m c) := (host3_keep _ main_call0_v5 (by decide)).trans (out2 m ρ c)
  rw [adj7 m ρ c, eb, es]
  rfl

end Cert.KernelIdeal.Chain

end
-- ==== Proof.RefValue.lean ====
/-
  The reference's result, read one operation at a time, is the network `Gcn.netR` of the argument arrays:
  A·(X·W₁) + b₁ through relu and W₂, two more such layers, and the row-wise log-softmax of the last.
-/
import proofs.«140558_g1520418423397_cont_week2b_307_3_alg».proof.Proof.RefRead
import proofs.«140558_g1520418423397_cont_week2b_307_3_alg».proof.Proof.Net

noncomputable section

namespace Cert.ReferenceIdeal.RefValue

open Cert.ReferenceIdeal Cert.ReferenceIdeal.Gen Idealize.ShloMosaic Idealize.ShloMosaic.TcCoe Idealize.SL.Sem
open Idealize.ShloMosaic.ValueIdx
open Cert.ReferenceIdeal.ReadP

/-- The host's plain product of an m×k by a k×n array is the matrix product of the two arrays read as matrices. -/
theorem dot_plain {m k n : ℕ} (A : FVec Ideal ⟨2, ![m, k]⟩ .f32) (B : FVec Ideal ⟨2, ![k, n]⟩ .f32) :
    Host.dotGeneral (DotDims.plain m k n) none A B = Gcn.unmat (Gcn.mm (Gcn.mat A) (Gcn.mat B)) := by
  funext i
  obtain ⟨a, b, rfl⟩ : ∃ (a : Fin m) (b : Fin n), i = ix2 a b := ⟨i 0, i 1, eq_ix2 i⟩
  rw [StackMember.dotGeneral_plain_apply]
  rfl

theorem mat_unmat {r c : ℕ} (M : Fin r → Fin c → EReal) : Gcn.mat (Gcn.unmat M) = M := rfl

/-- The maximum with −∞ on the left is the other operand. -/
theorem max_negInf (y : EReal) : max Gcn.negInf y = y := by
  simp [Gcn.negInf, Ideal.ofBits, Ideal.ieee]

/-- Row p of the reduced array with the column coordinate k put back is the index (p, k). -/
theorem lift_row (h : S10000x16.Reduces [1] S10000) (p : Fin 10000) (k : Fin (S10000x16.size 1)) :
    h.lift (ix1 p) k = ix2 p (⟨k.val, k.isLt⟩ : Fin 16) := by
  funext c; apply Fin.ext
  fin_cases c <;> rfl

/-- The shape fact of the row reduction, in the form the coordinate lift is stated over. -/
theorem red_h : S10000x16.Reduces [1] S10000 :=
  ⟨reducesTo_S10000x16_S10000_d1.1, Nat.one_pos, reducesTo_S10000x16_S10000_d1.2⟩

/-- The reduce-max from −∞ across the columns of an array, at row p, is the row's maximum. -/
theorem rowMax_reduce (y : S10000x16.Idx → EReal) (p : Fin 10000) :
    Host.reduce (FloatOps.maximumf (F := Ideal) (φ := .f32)) y (constant (F := Ideal) S_ .f32 0xFF800000#32)
      reducesTo_S10000x16_S10000_d1 h_S_ (ix1 p) = Gcn.rowMax (Gcn.mat y) p := by
  rw [Host.reduce_eq_fold_single (FloatOps.maximumf (F := Ideal) (φ := .f32)) _ _ reducesTo_S10000x16_S10000_d1 red_h h_S_]
  have hf : (y ∘ red_h.lift (ix1 p)) = fun k : Fin 16 => y (ix2 p k) :=
    funext fun k => congrArg y (lift_row red_h p k)
  rw [hf]
  rfl

section
variable (x0 : (⟨2, ![10000, 128]⟩ : Shape).Idx → EReal) (x1 : (⟨2, ![10000, 10000]⟩ : Shape).Idx → EReal)
    (x2 : (⟨2, ![128, 600]⟩ : Shape).Idx → EReal) (x3 : (⟨1, ![600]⟩ : Shape).Idx → EReal)
    (x4 : (⟨2, ![600, 16]⟩ : Shape).Idx → EReal) (x5 : (⟨1, ![16]⟩ : Shape).Idx → EReal)
    (x6 : (⟨2, ![16, 4]⟩ : Shape).Idx → EReal) (x7 : (⟨1, ![4]⟩ : Shape).Idx → EReal)
    (x8 : (⟨2, ![4, 16]⟩ : Shape).Idx → EReal) (x9 : (⟨1, ![16]⟩ : Shape).Idx → EReal)

/-! ## The first layer: relu(A·(X·W₁) + b₁)·W₂ -/

theorem v1_eq : val_main_v1 (F := Ideal) x0 x1 x2 = Gcn.unmat (Gcn.mm (Gcn.mat x1) (Gcn.mm (Gcn.mat x0) (Gcn.mat x2))) := by
  unfold val_main_v1 val_main_v0
  rw [show dot_S10000x10000_S10000x600_S10000x600_1_0_0_1_n_n = DotDims.plain 10000 10000 600 from rfl,
    show dot_S10000x128_S128x600_S10000x600_1_0_0_1_n_n = DotDims.plain 10000 128 600 from rfl,
    dot_plain, dot_plain, mat_unmat]

theorem v3_at (p : Fin 10000) (q : Fin 600) : val_main_v3 (F := Ideal) x3 (ix2 p q) = Gcn.vec x3 q := by
  rw [val_main_v3_apply, val_main_v2_apply]
  exact congrArg x3 (funext fun a => Fin.ext (by match a with | ⟨0, _⟩ => rfl))

theorem relu0_at (i : S10000x600.Idx) : val_main_call0_v0 (F := Ideal) i = 0 := by
  rw [val_main_call0_v0_apply, val_main_call0_cst_apply]
  exact Ideal.ofBits_zero_f32

theorem v5_eq : val_main_v5 (F := Ideal) x0 x1 x2 x3
    = Gcn.unmat (Gcn.reluBias (Gcn.mm (Gcn.mat x1) (Gcn.mm (Gcn.mat x0) (Gcn.mat x2))) (Gcn.vec x3)) := by
  funext i
  obtain ⟨p, q, rfl⟩ : ∃ (p : Fin 10000) (q : Fin 600), i = ix2 p q := ⟨i 0, i 1, eq_ix2 i⟩
  rw [val_main_v5_apply, val_main_v4_apply, relu0_at, v3_at, v1_eq]
  rfl

theorem v6_eq : val_main_v6 (F := Ideal) x0 x1 x2 x3 x4
    = Gcn.unmat (Gcn.layer1R (Gcn.mat x1) (Gcn.mat x0) (Gcn.mat x2) (Gcn.vec x3) (Gcn.mat x4)) := by
  unfold val_main_v6
  rw [show dot_S10000x600_S600x16_S10000x16_1_0_0_1_n_n = DotDims.plain 10000 600 16 from rfl, dot_plain, v5_eq, mat_unmat]
  rfl

/-! ## The second layer, over the first layer's output as it stands -/

theorem v7_eq : val_main_v7 (F := Ideal) x0 x1 x2 x3 x4
    = Gcn.unmat (Gcn.mm (Gcn.mat x1) (Gcn.mat (val_main_v6 (F := Ideal) x0 x1 x2 x3 x4))) := by
  unfold val_main_v7
  rw [show dot_S10000x10000_S10000x16_S10000x16_1_0_0_1_n_n = DotDims.plain 10000 10000 16 from rfl, dot_plain]

theorem v9_at (p : Fin 10000) (q : Fin 16) : val_main_v9 (F := Ideal) x5 (ix2 p q) = Gcn.vec x5 q := by
  rw [val_main_v9_apply, val_main_v8_apply]
  exact congrArg x5 (funext fun a => Fin.ext (by match a with | ⟨0, _⟩ => rfl))

theorem relu1_at (i : S10000x16.Idx) : val_main_call1_v0 (F := Ideal) i = 0 := by
  rw [val_main_call1_v0_apply, val_main_call1_cst_apply]
  exact Ideal.ofBits_zero_f32

theorem v11_eq : val_main_v11 (F := Ideal) x0 x1 x2 x3 x4 x5
    = Gcn.unmat (Gcn.reluBias (Gcn.mm (Gcn.mat x1) (Gcn.mat (val_main_v6 (F := Ideal) x0 x1 x2 x3 x4))) (Gcn.vec x5)) := by
  funext i
  obtain ⟨p, q, rfl⟩ : ∃ (p : Fin 10000) (q : Fin 16), i = ix2 p q := ⟨i 0, i 1, eq_ix2 i⟩
  rw [val_main_v11_apply, val_main_v10_apply, relu1_at, v9_at, v7_eq]
  rfl

theorem v12_eq : val_main_v12 (F := Ideal) x0 x1 x2 x3 x4 x5 x6
    = Gcn.unmat (Gcn.layer (Gcn.mat x1) (Gcn.mat (val_main_v6 (F := Ideal) x0 x1 x2 x3 x4)) (Gcn.vec x5) (Gcn.mat x6)) := by
  unfold val_main_v12
  rw [show dot_S10000x16_S16x4_S10000x4_1_0_0_1_n_n = DotDims.plain 10000 16 4 from rfl, dot_plain, v11_eq, mat_unmat]
  rfl

/-! ## The third layer -/

theorem v13_eq : val_main_v13 (F := Ideal) x0 x1 x2 x3 x4 x5 x6
    = Gcn.unmat (Gcn.mm (Gcn.mat x1) (Gcn.mat (val_main_v12 (F := Ideal) x0 x1 x2 x3 x4 x5 x6))) := by
  unfold val_main_v13
  rw [show dot_S10000x10000_S10000x4_S10000x4_1_0_0_1_n_n = DotDims.plain 10000 10000 4 from rfl, dot_plain]

theorem v15_at (p : Fin 10000) (q : Fin 4) : val_main_v15 (F := Ideal) x7 (ix2 p q) = Gcn.vec x7 q := by
  rw [val_main_v15_apply, val_main_v14_apply]
  exact congrArg x7 (funext fun a => Fin.ext (by match a with | ⟨0, _⟩ => rfl))

theorem relu2_at (i : S10000x4.Idx) : val_main_call2_v0 (F := Ideal) i = 0 := by
  rw [val_main_call2_v0_apply, val_main_call2_cst_apply]
  exact Ideal.ofBits_zero_f32

theorem v17_eq : val_main_v17 (F := Ideal) x0 x1 x2 x3 x4 x5 x6 x7
    = Gcn.unmat (Gcn.reluBias (Gcn.mm (Gcn.mat x1) (Gcn.mat (val_main_v12 (F := Ideal) x0 x1 x2 x3 x4 x5 x6))) (Gcn.vec x7)) := by
  funext i
  obtain ⟨p, q, rfl⟩ : ∃ (p : Fin 10000) (q : Fin 4), i = ix2 p q := ⟨i 0, i 1, eq_ix2 i⟩
  rw [val_main_v17_apply, val_main_v16_apply, relu2_at, v15_at, v13_eq]
  rfl

theorem v18_eq : val_main_v18 (F := Ideal) x0 x1 x2 x3 x4 x5 x6 x7 x8
    = Gcn.unmat (Gcn.layer (Gcn.mat x1) (Gcn.mat (val_main_v12 (F := Ideal) x0 x1 x2 x3 x4 x5 x6)) (Gcn.vec x7) (Gcn.mat x8)) := by
  unfold val_main_v18
  rw [show dot_S10000x4_S4x16_S10000x16_1_0_0_1_n_n = DotDims.plain 10000 4 16 from rfl, dot_plain, v17_eq, mat_unmat]
  rfl

/-! ## The last product and its bias -/

theorem v19_eq : val_main_v19 (F := Ideal) x0 x1 x2 x3 x4 x5 x6 x7 x8
    = Gcn.unmat (Gcn.mm (Gcn.mat x1) (Gcn.mat (val_main_v18 (F := Ideal) x0 x1 x2 x3 x4 x5 x6 x7 x8))) := by
  unfold val_main_v19
  rw [show dot_S10000x10000_S10000x16_S10000x16_1_0_0_1_n_n = DotDims.plain 10000 10000 16 from rfl, dot_plain]

theorem v21_at (p : Fin 10000) (q : Fin 16) : val_main_v21 (F := Ideal) x9 (ix2 p q) = Gcn.vec x9 q := by
  rw [val_main_v21_apply, val_main_v20_apply]
  exact congrArg x9 (funext fun a => Fin.ext (by match a with | ⟨0, _⟩ => rfl))

theorem v22_eq : val_main_v22 (F := Ideal) x0 x1 x2 x3 x4 x5 x6 x7 x8 x9
    = Gcn.unmat (fun i j => Gcn.mm (Gcn.mat x1) (Gcn.mat (val_main_v18 (F := Ideal) x0 x1 x2 x3 x4 x5 x6 x7 x8)) i j + Gcn.vec x9 j) := by
  funext i
  obtain ⟨p, q, rfl⟩ : ∃ (p : Fin 10000) (q : Fin 16), i = ix2 p q := ⟨i 0, i 1, eq_ix2 i⟩
  rw [val_main_v22_apply, v21_at, v19_eq]
  rfl

/-! ## The row-wise log-softmax of the last pre-activation, read as it stands -/

theorem c3v0_at (p : Fin 10000) : val_main_call3_v0 (F := Ideal) x0 x1 x2 x3 x4 x5 x6 x7 x8 x9 (ix1 p)
    = Gcn.rowMax (Gcn.mat (val_main_v22 (F := Ideal) x0 x1 x2 x3 x4 x5 x6 x7 x8 x9)) p := by
  unfold val_main_call3_v0 val_main_call3_cst
  exact rowMax_reduce _ p

theorem c3v2_at (p : Fin 10000) : val_main_call3_v2 (F := Ideal) x0 x1 x2 x3 x4 x5 x6 x7 x8 x9 (ix1 p)
    = Gcn.rowMax (Gcn.mat (val_main_v22 (F := Ideal) x0 x1 x2 x3 x4 x5 x6 x7 x8 x9)) p := by
  rw [val_main_call3_v2_apply, val_main_call3_v1_apply, val_main_call3_cst_0_apply, c3v0_at]
  exact max_negInf _

theorem c3v4_at (p : Fin 10000) (q : Fin 16) : val_main_call3_v4 (F := Ideal) x0 x1 x2 x3 x4 x5 x6 x7 x8 x9 (ix2 p q)
    = Gcn.rowMax (Gcn.mat (val_main_v22 (F := Ideal) x0 x1 x2 x3 x4 x5 x6 x7 x8 x9)) p := by
  rw [val_main_call3_v4_apply, val_main_call3_v3_apply,
    show idx_main_call3_v3 (idx_main_call3_v4 (ix2 p q)) = ix1 p from
      funext fun a => Fin.ext (by match a with | ⟨0, _⟩ => rfl),
    c3v2_at]

theorem c3v5_at (p : Fin 10000) (q : Fin 16) : val_main_call3_v5 (F := Ideal) x0 x1 x2 x3 x4 x5 x6 x7 x8 x9 (ix2 p q)
    = Gcn.mat (val_main_v22 (F := Ideal) x0 x1 x2 x3 x4 x5 x6 x7 x8 x9) p q
      - Gcn.rowMax (Gcn.mat (val_main_v22 (F := Ideal) x0 x1 x2 x3 x4 x5 x6 x7 x8 x9)) p := by
  rw [val_main_call3_v5_apply, c3v4_at]
  rfl

theorem c3v7_at (p : Fin 10000) : val_main_call3_v7 (F := Ideal) x0 x1 x2 x3 x4 x5 x6 x7 x8 x9 (ix1 p)
    = ∑ k : Fin 16, Ideal.exp (Gcn.mat (val_main_v22 (F := Ideal) x0 x1 x2 x3 x4 x5 x6 x7 x8 x9) p k
        - Gcn.rowMax (Gcn.mat (val_main_v22 (F := Ideal) x0 x1 x2 x3 x4 x5 x6 x7 x8 x9)) p) := by
  rw [val_main_call3_v7_apply, val_main_call3_cst_1_apply]
  refine (congrArg (· + _) Ideal.ofBits_zero_f32).trans ?_
  rw [zero_add]
  refine Finset.sum_congr rfl fun k _ => ?_
  rw [show idx_main_call3_v7 (ix1 p) k = ix2 p k from
      funext fun a => Fin.ext (by match a with | ⟨0, _⟩ => rfl | ⟨1, _⟩ => rfl),
    val_main_call3_v6_apply, c3v5_at]
  rfl

theorem c3v10_at (p : Fin 10000) (q : Fin 16) : val_main_call3_v10 (F := Ideal) x0 x1 x2 x3 x4 x5 x6 x7 x8 x9 (ix2 p q)
    = Ideal.log (∑ k : Fin 16, Ideal.exp (Gcn.mat (val_main_v22 (F := Ideal) x0 x1 x2 x3 x4 x5 x6 x7 x8 x9) p k
        - Gcn.rowMax (Gcn.mat (val_main_v22 (F := Ideal) x0 x1 x2 x3 x4 x5 x6 x7 x8 x9)) p)) := by
  rw [val_main_call3_v10_apply, val_main_call3_v9_apply, val_main_call3_v8_apply,
    show idx_main_call3_v8 (idx_main_call3_v10 (ix2 p q)) = ix1 p from
      funext fun a => Fin.ext (by match a with | ⟨0, _⟩ => rfl),
    c3v7_at]
  rfl

theorem v23_eq : val_main_v23 (F := Ideal) x0 x1 x2 x3 x4 x5 x6 x7 x8 x9
    = Gcn.unmat (Gcn.logSoftmax (Gcn.mat (val_main_v22 (F := Ideal) x0 x1 x2 x3 x4 x5 x6 x7 x8 x9))) := by
  funext i
  obtain ⟨p, q, rfl⟩ : ∃ (p : Fin 10000) (q : Fin 16), i = ix2 p q := ⟨i 0, i 1, eq_ix2 i⟩
  rw [val_main_v23_apply, c3v5_at, c3v10_at]
  rfl

/-- The whole reference, stage by stage, is the network in the reference's grouping. -/
theorem v23_net : val_main_v23 (F := Ideal) x0 x1 x2 x3 x4 x5 x6 x7 x8 x9 = Gcn.netR x0 x1 x2 x3 x4 x5 x6 x7 x8 x9 := by
  rw [v23_eq, v22_eq, mat_unmat, v18_eq, mat_unmat, v12_eq, mat_unmat, v6_eq, mat_unmat]
  rfl

end

/-- The reference run's result term is the network in the reference's grouping. -/
theorem result_eq (m : (ℓ : Loc nD τ sig) → Buf (Elt Ideal) ℓ) (c : Dev nD) :
    Cert.ReferenceIdeal.ValueP.res_main_v23 (F := Ideal) m c
      = Gcn.netR (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  rw [ReadP.val_main_v23_eq]
  exact v23_net _ _ _ _ _ _ _ _ _ _

end Cert.ReferenceIdeal.RefValue

end
-- ==== Proof.Finite.lean ====
/-
  From the precondition "every float input is finite" to: every entry of the features, the adjacency and the
  first weight matrix is a real number — what the associativity of the triple product A·X·W₁ needs.
-/
import proofs.«140558_g1520418423397_cont_week2b_307_3_alg».proof.Defs
import proofs.«140558_g1520418423397_cont_week2b_307_3_alg».proof.Proof.Gen.Pre_finite_inputs
import Idealize.ShloMosaic.Lib.ReduceAll
import Idealize.ShloMosaic.Lib.ValueIdx

noncomputable section

namespace Cert.KernelIdeal.Finite

open Cert.KernelIdeal Idealize.ShloMosaic Idealize.ShloMosaic.TcCoe Idealize.SL.Sem

/-- The scalar shape has exactly one index. -/
instance subsingleton_scalar_idx : Subsingleton Cert.Pre_finite_inputs.S_.Idx :=
  ⟨fun a b => funext fun d => d.elim0⟩

/-- An extended real whose absolute value `max x (-x)` lies strictly below `+∞` is a real number: the two
    infinities both have absolute value `+∞`. -/
theorem real_of_abs_lt_top (x : EReal) (h : max x (-x) < ⊤) : ∃ r : ℝ, x = (r : EReal) := by
  induction x using EReal.rec with
  | bot => simp at h
  | coe r => exact ⟨r, rfl⟩
  | top => simp at h

/-- One conjunct of the precondition read back: if the conjunction over all entries of `|x i| < +∞` is true, every
    entry of `x` is a real number. -/
theorem real_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (h0 : 0 < Cert.Pre_finite_inputs.S_.numel)
    (e : Host.reduce IntOp.andi
          (cmpf .olt (Host.absf x)
            (broadcastInDim s ![] hb (constant Cert.Pre_finite_inputs.S_ .f32 0x7F800000#32)))
          (constantI Cert.Pre_finite_inputs.S_ 1 1#1) hr h0 ValueIdx.ix0 = 1#1) (i : s.Idx) :
    ∃ r : ℝ, x i = (r : EReal) := by
  have hi := Host.reduce_andi_all _ _ hr h0 ValueIdx.ix0 e i
  refine real_of_abs_lt_top (x i) ?_
  have htop : Ideal.ofBits .f32 0x7F800000#32 = (⊤ : EReal) := by simp [Ideal.ofBits, Ideal.ieee]
  have hi' : Ideal.cmp .olt (max (x i) (-(x i))) (Ideal.ofBits .f32 0x7F800000#32) = 1#1 := hi
  rw [htop] at hi'
  by_contra hn
  rw [Ideal.cmp, decide_eq_false hn] at hi'
  exact absurd hi' (by decide)

/-- A conjunction of two truth values at the scalar index is true only if both are. -/
theorem andi_ix0 (x y : IVec Cert.Pre_finite_inputs.S_ 1) (h : andi x y ValueIdx.ix0 = 1#1) :
    x ValueIdx.ix0 = 1#1 ∧ y ValueIdx.ix0 = 1#1 :=
  IntOp.andi_eq_one.1 h

/-- Under the precondition the features (argument 0), the adjacency (argument 1) and the first weight matrix
    (argument 2) hold real numbers. -/
theorem real_of_pre (m : (ℓ : Loc nD τ sig) → Buf (Elt Ideal) ℓ)
    (h : Cert.Pre_KernelIdeal (hPre_finite_inputs := Cert.Pre_finite_inputs.Gen.facts) m) (c : Dev nD) :
    (∀ i, ∃ r : ℝ, m ((c.tc : Thread nD τ).loc main_arg0) i = (r : EReal))
    ∧ (∀ i, ∃ r : ℝ, m ((c.tc : Thread nD τ).loc main_arg1) i = (r : EReal))
    ∧ (∀ i, ∃ r : ℝ, m ((c.tc : Thread nD τ).loc main_arg2) i = (r : EReal)) := by
  have hc := congrFun (h c) ValueIdx.ix0
  dsimp only [Cert.Pre_finite_inputs.fn, Cert.Pre_finite_inputs.fn_part1, Cert.Pre_finite_inputs.fn_part2] at hc
  -- the ten conjuncts are nested to the left; the first three sit innermost
  have h43 := (andi_ix0 _ _ hc).1
  have h38 := (andi_ix0 _ _ h43).1
  have h33 := (andi_ix0 _ _ h38).1
  have h28 := (andi_ix0 _ _ h33).1
  have h23 := (andi_ix0 _ _ h28).1
  have h18 := (andi_ix0 _ _ h23).1
  have h13 := (andi_ix0 _ _ h18).1
  obtain ⟨h8, h12⟩ := andi_ix0 _ _ h13
  obtain ⟨h3, h7⟩ := andi_ix0 _ _ h8
  exact ⟨fun i => real_of_all _ _ _ _ h3 i, fun i => real_of_all _ _ _ _ h7 i,
    fun i => real_of_all _ _ _ _ h12 i⟩

end Cert.KernelIdeal.Finite

end
-- ==== Proof.lean ====
/-
  The four-layer graph convolution over a dense adjacency A, as a kernel and as its plain reference:
    out = log_softmax(A·(relu(A·(relu(A·(relu(A·(X·W₁) + b₁)·W₂) + b₂)·W₃) + b₃)·W₄) + b₄), row-wise.
  The kernel makes four passes over A in strips of 400 rows; each pass fuses a layer's aggregation A·S, its bias and
  relu, and the product with the next layer's narrow weight matrix, and the first pass forms (A·X)·W₁ where the
  reference forms A·(X·W₁). At the ideal values both programs compute the network of `Proof/Net.lean`: the kernel
  `Gcn.netK` (each region's strips tile its layer, `Proof/Region0–3`; the regions hand their arrays on through the
  host's reshapes of the bias vectors, `Proof/Chain.lean`), the reference `Gcn.netR` (`Proof/RefValue.lean`), and
  the two differ only in the grouping of A·X·W₁, which agrees when A, X and W₁ are finite (`Proof/Spec.lean`,
  `Proof/Finite.lean`): the one place the precondition is used. Everything after the first layer is the same
  function of the same intermediate on both sides, log-softmax included, so no further law is needed.
-/
import proofs.«140558_g1520418423397_cont_week2b_307_3_alg».proof.Defs
import proofs.«140558_g1520418423397_cont_week2b_307_3_alg».proof.Proof.Gen.Kernel
import proofs.«140558_g1520418423397_cont_week2b_307_3_alg».proof.Proof.Gen.Kernel.Skeleton
import proofs.«140558_g1520418423397_cont_week2b_307_3_alg».proof.Proof.Gen.Kernel.Launch
import proofs.«140558_g1520418423397_cont_week2b_307_3_alg».proof.Proof.Gen.Kernel.Points
import proofs.«140558_g1520418423397_cont_week2b_307_3_alg».proof.Proof.Gen.Kernel.Frame
import proofs.«140558_g1520418423397_cont_week2b_307_3_alg».proof.Proof.Gen.KernelIdeal
import proofs.«140558_g1520418423397_cont_week2b_307_3_alg».proof.Proof.Gen.KernelIdeal.Skeleton
import proofs.«140558_g1520418423397_cont_week2b_307_3_alg».proof.Proof.Gen.KernelIdeal.Launch
import proofs.«140558_g1520418423397_cont_week2b_307_3_alg».proof.Proof.Gen.KernelIdeal.Points
import proofs.«140558_g1520418423397_cont_week2b_307_3_alg».proof.Proof.Gen.KernelIdeal.Frame
import proofs.«140558_g1520418423397_cont_week2b_307_3_alg».proof.Proof.Gen.ReferenceIdeal
import proofs.«140558_g1520418423397_cont_week2b_307_3_alg».proof.Proof.Gen.Pre_finite_inputs
import proofs.«140558_g1520418423397_cont_week2b_307_3_alg».proof.Proof.KernelRun
import proofs.«140558_g1520418423397_cont_week2b_307_3_alg».proof.Proof.Chain
import proofs.«140558_g1520418423397_cont_week2b_307_3_alg».proof.Proof.RefValue
import proofs.«140558_g1520418423397_cont_week2b_307_3_alg».proof.Proof.Finite
import proofs.«140558_g1520418423397_cont_week2b_307_3_alg».proof.Proof.Net
import Idealize.ShloMosaic.Adequacy
import Idealize.ShloMosaic.Init

noncomputable section

namespace Cert.Proof

open Idealize.ShloMosaic Idealize.SL.Sem

/-- The reference terminates with its arguments unchanged: its run with the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- At the ideal values both programs end with the network of their arguments; the two groupings of the first
    layer's triple product agree because the precondition makes A, X and W₁ finite. -/
theorem algebraic : Cert.algebraic_KernelIdeal_ReferenceIdeal := by
  intro m ρ m' ρ' hpre hagree
  refine ⟨fun c => Gcn.netK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.Chain.result m ρ c), (h c).2⟩)
      (Cert.KernelIdeal.Run.run_result (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9⟩ := hagree c
    obtain ⟨hx, hadj, hw1⟩ := Cert.KernelIdeal.Finite.real_of_pre m hpre c
    rw [Cert.ReferenceIdeal.RefValue.result_eq m' c, h0, h1, h2, h3, h4, h5, h6, h7, h8, h9]
    exact (Gcn.netK_eq_netR _ _ _ _ _ _ _ _ _ _ hx hadj hw1).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
